-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel

variable [Facts]

def fn {F : FTy → Type} [FloatOps F] (main_arg0 : FVec F S8x64x64x64 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  main_v3
-- ==== Kernel.lean ====
abbrev S8x64x64x64 : Shape := ⟨4, ![8, 64, 64, 64]⟩
abbrev S8x64x4096 : Shape := ⟨3, ![8, 64, 4096]⟩
abbrev S_ : Shape := ⟨0, ![]⟩
abbrev S8x4096 : Shape := ⟨2, ![8, 4096]⟩
abbrev S8 : Shape := ⟨1, ![8]⟩
abbrev S8x1 : Shape := ⟨2, ![8, 1]⟩
abbrev S8x1x4096 : Shape := ⟨3, ![8, 1, 4096]⟩
abbrev S1x1x4096 : Shape := ⟨3, ![1, 1, 4096]⟩
abbrev S1x64x512 : Shape := ⟨3, ![1, 64, 512]⟩
abbrev S1x64x4096 : Shape := ⟨3, ![1, 64, 4096]⟩
abbrev S1x4096 : Shape := ⟨2, ![1, 4096]⟩
abbrev S64x4096 : Shape := ⟨2, ![64, 4096]⟩
abbrev S1x1x512 : Shape := ⟨3, ![1, 1, 512]⟩
abbrev S1x512 : Shape := ⟨2, ![1, 512]⟩
abbrev S64x512 : Shape := ⟨2, ![64, 512]⟩
abbrev S512x1 : Shape := ⟨2, ![512, 1]⟩
abbrev S512x4096 : Shape := ⟨2, ![512, 4096]⟩
abbrev S8x512 : Shape := ⟨2, ![8, 512]⟩

abbrev nBuf : Space → Nat
  | .hbm => 22
  | .vmem => 10
  | .smem => 0
  | _ => 0

abbrev bufTy : (tb : Table) → Fin (tcTables nBuf tb) → BufTy
  | .hbm, ⟨0, _⟩ => ⟨S8x64x64x64, .f32⟩
  | .hbm, ⟨1, _⟩ => ⟨S8x64x4096, .f32⟩
  | .hbm, ⟨2, _⟩ => ⟨S_, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8, .f32⟩
  | .hbm, ⟨9, _⟩ => ⟨S8x1, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S8x4096, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S8x1x4096, .f32⟩
  | .hbm, ⟨19, _⟩ => ⟨S8x1x4096, .f32⟩
  | .hbm, ⟨20, _⟩ => ⟨S8x64x4096, .f32⟩
  | .hbm, ⟨21, _⟩ => ⟨S8x64x64x64, .f32⟩
  | .local _ .vmem, ⟨0, _⟩ => ⟨S1x1x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x64x512, .f32⟩
  | .local _ .vmem, ⟨5, _⟩ => ⟨S1x64x512, .f32⟩
  | .local _ .vmem, ⟨6, _⟩ => ⟨S1x64x4096, .f32⟩
  | .local _ .vmem, ⟨7, _⟩ => ⟨S1x64x4096, .f32⟩
  | .local _ .vmem, ⟨8, _⟩ => ⟨S1x4096, .f32⟩
  | .local _ .vmem, ⟨9, _⟩ => ⟨S64x4096, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0_6 : Index := 0#32
  let c0_7 : Index := 0#32
  let arg1 : BitVec 32 := BitVec.ofNat 32 (i 1).val
  let c512_i32 : BitVec 32 := 512#32
  let v3 : BitVec 32 := Scalar.muli arg1 c512_i32
  let v4 : BitVec 32 := v3
  let v9 : Index := Scalar.indexCast v4
  ![0, 0, v9.toNat]
def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_21 : BitVec 32 := 0#32
  let v39 : BitVec 1 := Scalar.cmpi .ne v38 c0_i32_21
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x64x64x64_S8x64x4096 : S8x64x64x64.ShapeCasts S8x64x4096
  reducesTo_S8x64x4096_S8x4096_d1 : S8x64x4096.ReducesTo [1] S8x4096
  h_S_ : 0 < S_.numel
  bcast_S_S8x4096 : S_.BroadcastsInDim S8x4096 (![] : Fin 0 → Fin S8x4096.rank)
  reducesTo_S8x4096_S8_d1 : S8x4096.ReducesTo [1] S8
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  shapeCasts_S8x4096_S8x1x4096 : S8x4096.ShapeCasts S8x1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  h_S1x1x512 : 0 < S1x1x512.numel
  shapeCasts_S1x1x512_S1x512 : S1x1x512.ShapeCasts S1x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  transposes_S1x512_p1_0_S512x1 : S1x512.Transposes [1, 0] S512x1
  broadcasts_S512x1_S512x4096 : S512x1.Broadcasts S512x4096
  broadcasts_S1x4096_S512x4096 : S1x4096.Broadcasts S512x4096
  bitsLt_bf16_f32 : FTy.bits .bf16 < FTy.bits .f32
  slices_S8x4096_o0_0_S1x4096 : S8x4096.Slices ![0, 0] S1x4096
  broadcasts_S1x4096_S64x4096 : S1x4096.Broadcasts S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  shapeCasts_S8x64x4096_S8x64x64x64 : S8x64x4096.ShapeCasts S8x64x64x64
  dot_S64x512_S512x4096_S64x4096_1_0_0_1_n_n_wf : DotDims.WF S64x512 S512x4096 S64x4096 [1] [0] [0] [1] [] []
  dot_S8x512_S512x4096_S8x4096_1_0_0_1_n_n_wf : DotDims.WF S8x512 S512x4096 S8x4096 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x1x512.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S8x1x4096.size a
  hwx0_0 : ∀ i : grid0.Coords, EltTy.bits .f32 = 32 ∨ (Rect.block (s := S8x1x4096) S1x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S8x1x4096.size a
  hwx0_1 : ∀ i : grid0.Coords, EltTy.bits .f32 = 32 ∨ (Rect.block (s := S8x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S8x64x4096.size a
  hwx0_2 : ∀ i : grid0.Coords, EltTy.bits .f32 = 32 ∨ (Rect.block (s := S8x64x4096) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x4096.size a ≤ S8x64x4096.size a
  hwx0_3 : ∀ i : grid0.Coords, EltTy.bits .f32 = 32 ∨ (Rect.block (s := S8x64x4096) S1x64x4096.size (cc0_transform_3 i) (hinb0_3 i)).WholeWords (EltTy.packing .f32)

variable [Facts₀]

def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf
def dot_S8x512_S512x4096_S8x4096_1_0_0_1_n_n : DotDims S8x512 S512x4096 S8x4096 where
  lhsContracting := [1]
  rhsContracting := [0]
  lhsNonContracting := [0]
  rhsNonContracting := [1]
  lhsBatch := []
  rhsBatch := []
  wf := dot_S8x512_S512x4096_S8x4096_1_0_0_1_n_n_wf

abbrev win0_0 : Pipeline.Window sig grid0 :=
  Pipeline.Window.ofSpec (Memref.whole main_v13) S1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x64x64x64 : Shape := ⟨4, ![8, 64, 64, 64]⟩
abbrev S_ : Shape := ⟨0, ![]⟩
abbrev S8x64x64 : Shape := ⟨3, ![8, 64, 64]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8x64x4096 : Shape := ⟨3, ![8, 64, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S_, .f32⟩
  | .hbm, ⟨2, _⟩ => ⟨S8x64x64, .f32⟩
  | .hbm, ⟨3, _⟩ => ⟨S_, .f32⟩
  | .hbm, ⟨4, _⟩ => ⟨S8x64x64, .f32⟩
  | .hbm, ⟨5, _⟩ => ⟨S8x64x64, .f32⟩
  | .hbm, ⟨6, _⟩ => ⟨S8x4096, .f32⟩
  | .hbm, ⟨7, _⟩ => ⟨S8x4096x1, .f32⟩
  | .hbm, ⟨8, _⟩ => ⟨S8x1x4096, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x64x4096, .f32⟩
  | .hbm, ⟨27, _⟩ => ⟨S8x64x4096, .f32⟩
  | .hbm, ⟨28, _⟩ => ⟨S8x64x64x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  reducesTo_S8x64x64x64_S8x64x64_d1 : S8x64x64x64.ReducesTo [1] S8x64x64
  h_S_ : 0 < S_.numel
  bcast_S_S8x64x64 : S_.BroadcastsInDim S8x64x64 (![] : Fin 0 → Fin S8x64x64.rank)
  shapeCasts_S8x64x64_S8x4096 : S8x64x64.ShapeCasts S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  shapeCasts_S8x64x64x64_S8x64x4096 : S8x64x64x64.ShapeCasts S8x64x4096
  shapeCasts_S8x64x4096_S8x64x64x64 : S8x64x4096.ShapeCasts S8x64x64x64
  dot_S8x64x4096_S8x4096x4096_S8x64x4096_2_2_1_1_0_0_wf : DotDims.WF S8x64x4096 S8x4096x4096 S8x64x4096 [2] [2] [1] [1] [0] [0]

variable [Facts₀]

def dot_S8x64x4096_S8x4096x4096_S8x64x4096_2_2_1_1_0_0 : DotDims S8x64x4096 S8x4096x4096 S8x64x4096 where
  lhsContracting := [2]
  rhsContracting := [2]
  lhsNonContracting := [1]
  rhsNonContracting := [1]
  lhsBatch := [0]
  rhsBatch := [0]
  wf := dot_S8x64x4096_S8x4096x4096_S8x64x4096_2_2_1_1_0_0_wf

class Facts : Prop extends Facts₀ where

variable [Facts]
-- ==== Proof.Pieces.lean ====
/-
  What one visit of the kernel body leaves behind, as pure terms of what it found.

  The body loads the mean row, the shift row, the 512 means of its key tile (a sub-row of the mean row) and the value
  tile; it adds the tile's product into the numerator scratch and the tile's column sums into the denominator scratch
  (both zeroed first at tile 0 of a batch), and at tile 7 stores their quotient into the result block. Each buffer is
  stored whole, so what a case of the body leaves in it is the payload of its last store, with every load read through.
-/
import proofs.«428967_j45646912422425_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.Saam.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 channel means of the key tile the body visits at grid point `i`: the sub-row of the mean row `x0` at
    the point's offset. -/
def subAvg (i : grid0.Coords) (x0 : Vec F S1x1x4096 .f32) : Vec F S1x1x512 .f32 :=
  View.ld x0 (Rect.unit (s := S1x1x4096) (k0_off1 i) S1x1x512.size (k0_off1_inb i))

/-- One visit's update of the numerator scratch: what it held plus the tile's product. -/
def stepAcc (i : grid0.Coords) (x0 : Vec F S1x1x4096 .f32) (x1 : Vec F S1x1x4096 .f32) (x2 : Vec F S1x64x512 .f32) (acc : Vec F S64x4096 .f32) : Vec F S64x4096 .f32 :=
  k0_pay6 x0 x1 (subAvg i x0) x2 acc

/-- One visit's update of the denominator scratch: what it held plus the tile's column sums. -/
def stepL (i : grid0.Coords) (x0 : Vec F S1x1x4096 .f32) (x1 : Vec F S1x1x4096 .f32) (l : Vec F S1x4096 .f32) : Vec F S1x4096 .f32 :=
  k0_pay1 l (k0_pay7 x0 x1 (subAvg i x0))

theorem sB1 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x64x512 .f32) (harg4 : arg4.IsWhole) (arg5 : Memref sig .tc .vmem S1x64x4096 .f32) (harg5 : arg5.IsWhole) (arg6 : Memref sig .tc .vmem S1x4096 .f32) (harg6 : arg6.IsWhole) (arg7 : Memref sig .tc .vmem S64x4096 .f32) (harg7 : arg7.IsWhole) (hc0 : ¬cond0_0 i) (hc1 : ¬cond0_1 i) (x0 : Vec F S1x1x4096 .f32) (x1 : Vec F S1x1x4096 .f32) (x2 : Vec F S1x64x512 .f32) (xs0 : Vec F S1x4096 .f32) (xs1 : Vec F S64x4096 .f32) :
    sout0_B_1 c i arg2 harg2 arg3 harg3 arg4 harg4 arg5 harg5 arg6 harg6 arg7 harg7 hc0 hc1 x0 x1 x2 xs0 xs1 = stepAcc i x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread,
    View.ld_unit_zero (S := S1x1x4096) hz3, View.ld_unit_zero (S := S1x64x512) hz3, View.ld_unit_zero (S := S64x4096) hz2]
  rfl

theorem sB0 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x64x512 .f32) (harg4 : arg4.IsWhole) (arg5 : Memref sig .tc .vmem S1x64x4096 .f32) (harg5 : arg5.IsWhole) (arg6 : Memref sig .tc .vmem S1x4096 .f32) (harg6 : arg6.IsWhole) (arg7 : Memref sig .tc .vmem S64x4096 .f32) (harg7 : arg7.IsWhole) (hc0 : ¬cond0_0 i) (hc1 : ¬cond0_1 i) (x0 : Vec F S1x1x4096 .f32) (x1 : Vec F S1x1x4096 .f32) (x2 : Vec F S1x64x512 .f32) (xs0 : Vec F S1x4096 .f32) (xs1 : Vec F S64x4096 .f32) :
    sout0_B_0 c i arg2 harg2 arg3 harg3 arg4 harg4 arg5 harg5 arg6 harg6 arg7 harg7 hc0 hc1 x0 x1 x2 xs0 xs1 = stepL i x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg6.read_unread,
    View.ld_unit_zero (S := S1x1x4096) hz3, View.ld_unit_zero (S := S1x4096) hz2]
  rfl

theorem sC1 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x64x512 .f32) (harg4 : arg4.IsWhole) (arg5 : Memref sig .tc .vmem S1x64x4096 .f32) (harg5 : arg5.IsWhole) (arg6 : Memref sig .tc .vmem S1x4096 .f32) (harg6 : arg6.IsWhole) (arg7 : Memref sig .tc .vmem S64x4096 .f32) (harg7 : arg7.IsWhole) (hc0 : ¬cond0_0 i) (hc1 : cond0_1 i) (x0 : Vec F S1x1x4096 .f32) (x1 : Vec F S1x1x4096 .f32) (x2 : Vec F S1x64x512 .f32) (xs0 : Vec F S1x4096 .f32) (xs1 : Vec F S64x4096 .f32) :
    sout0_C_1 c i arg2 harg2 arg3 harg3 arg4 harg4 arg5 harg5 arg6 harg6 arg7 harg7 hc0 hc1 x0 x1 x2 xs0 xs1 = stepAcc i x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread,
    View.ld_unit_zero (S := S1x1x4096) hz3, View.ld_unit_zero (S := S1x64x512) hz3, View.ld_unit_zero (S := S64x4096) hz2]
  rfl

theorem sC0 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x64x512 .f32) (harg4 : arg4.IsWhole) (arg5 : Memref sig .tc .vmem S1x64x4096 .f32) (harg5 : arg5.IsWhole) (arg6 : Memref sig .tc .vmem S1x4096 .f32) (harg6 : arg6.IsWhole) (arg7 : Memref sig .tc .vmem S64x4096 .f32) (harg7 : arg7.IsWhole) (hc0 : ¬cond0_0 i) (hc1 : cond0_1 i) (x0 : Vec F S1x1x4096 .f32) (x1 : Vec F S1x1x4096 .f32) (x2 : Vec F S1x64x512 .f32) (xs0 : Vec F S1x4096 .f32) (xs1 : Vec F S64x4096 .f32) :
    sout0_C_0 c i arg2 harg2 arg3 harg3 arg4 harg4 arg5 harg5 arg6 harg6 arg7 harg7 hc0 hc1 x0 x1 x2 xs0 xs1 = stepL i x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg6.read_unread,
    View.ld_unit_zero (S := S1x1x4096) hz3, View.ld_unit_zero (S := S1x4096) hz2]
  rfl

theorem oC3 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x64x512 .f32) (harg4 : arg4.IsWhole) (arg5 : Memref sig .tc .vmem S1x64x4096 .f32) (harg5 : arg5.IsWhole) (arg6 : Memref sig .tc .vmem S1x4096 .f32) (harg6 : arg6.IsWhole) (arg7 : Memref sig .tc .vmem S64x4096 .f32) (harg7 : arg7.IsWhole) (hc0 : ¬cond0_0 i) (hc1 : cond0_1 i) (x0 : Vec F S1x1x4096 .f32) (x1 : Vec F S1x1x4096 .f32) (x2 : Vec F S1x64x512 .f32) (xs0 : Vec F S1x4096 .f32) (xs1 : Vec F S64x4096 .f32) :
    out0_C_3 c i arg2 harg2 arg3 harg3 arg4 harg4 arg5 harg5 arg6 harg6 arg7 harg7 hc0 hc1 x0 x1 x2 xs0 xs1 = k0_pay2 (stepAcc i x0 x1 x2 xs1) (stepL i x0 x1 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz3]
  simp only [View.readCov_unit_zero (S := S64x4096) _ hz2, View.readCov_unit_zero (S := S1x4096) _ hz2,
    View.readAt_eq_ld, harg2.read_unread, harg3.read_unread, harg4.read_unread, harg6.read_unread, harg7.read_unread,
    View.ld_unit_zero (S := S1x1x4096) hz3, View.ld_unit_zero (S := S1x64x512) hz3, View.ld_unit_zero (S := S64x4096) hz2,
    View.ld_unit_zero (S := S1x4096) hz2]
  rfl

theorem sA1 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x64x512 .f32) (harg4 : arg4.IsWhole) (arg5 : Memref sig .tc .vmem S1x64x4096 .f32) (harg5 : arg5.IsWhole) (arg6 : Memref sig .tc .vmem S1x4096 .f32) (harg6 : arg6.IsWhole) (arg7 : Memref sig .tc .vmem S64x4096 .f32) (harg7 : arg7.IsWhole) (hc0 : cond0_0 i) (hc1 : ¬cond0_1 i) (x0 : Vec F S1x1x4096 .f32) (x1 : Vec F S1x1x4096 .f32) (x2 : Vec F S1x64x512 .f32) :
    sout0_A_1 c i arg2 harg2 arg3 harg3 arg4 harg4 arg5 harg5 arg6 harg6 arg7 harg7 hc0 hc1 x0 x1 x2 = stepAcc i x0 x1 x2 k0_pay4 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S64x4096) hz2]
  simp only [View.readCov_unit_zero (S := S64x4096) _ hz2,
    View.readAt_eq_ld, harg2.read_unread, harg3.read_unread, harg4.read_unread,
    View.ld_unit_zero (S := S1x1x4096) hz3, View.ld_unit_zero (S := S1x64x512) hz3]
  rfl

theorem sA0 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x64x512 .f32) (harg4 : arg4.IsWhole) (arg5 : Memref sig .tc .vmem S1x64x4096 .f32) (harg5 : arg5.IsWhole) (arg6 : Memref sig .tc .vmem S1x4096 .f32) (harg6 : arg6.IsWhole) (arg7 : Memref sig .tc .vmem S64x4096 .f32) (harg7 : arg7.IsWhole) (hc0 : cond0_0 i) (hc1 : ¬cond0_1 i) (x0 : Vec F S1x1x4096 .f32) (x1 : Vec F S1x1x4096 .f32) (x2 : Vec F S1x64x512 .f32) :
    sout0_A_0 c i arg2 harg2 arg3 harg3 arg4 harg4 arg5 harg5 arg6 harg6 arg7 harg7 hc0 hc1 x0 x1 x2 = stepL i x0 x1 k0_pay3 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x4096) hz2]
  simp only [View.readCov_unit_zero (S := S1x4096) _ hz2,
    View.readAt_eq_ld, harg2.read_unread, harg3.read_unread,
    View.ld_unit_zero (S := S1x1x4096) hz3]
  rfl

end Cert.Saam.Pieces
end
-- ==== Proof.Spec.lean ====
/-
  Spatial self-attention with one-dimensional heads, as mathematics.

  The input is x[b, c, h, w], 8 × 64 × 64 × 64.  A pixel n of the flattened 64 × 64 plane is (h, w) = (n / 64, n % 64).
  The channel mean a[b, n] = (∑ c, x[b, c, n]) / 64 is both the query and the key: the score of query n against key m is
  a[b, n] · a[b, m], and the result is  out[b, c, n] = ∑ m, x[b, c, m] · softmax_m (a[b, n] · a[b, m]).

  Two arrangements of that sum are named here, over the extended reals and with the float literals left as their words:

  * `kerOut`: keys are visited in 8 tiles of 512; the weight of key k for query n is exp (a k · a n − μ n) with
    μ n = max (a n · max a, a n · min a); numerator ∑ x · weight and denominator ∑ 1 · weight are accumulated over the
    tiles from zero, and divided at the end.
  * `refOut`: the weight exp (a n · a m − M n), M n = max_m (a n · a m), is divided by its row sum first, then summed
    against x.
-/
import Idealize.ShloMosaic.PureOps.Ideal
import Idealize.ShloMosaic.Lib.ValueIdx

noncomputable section

namespace Cert.Saam

open Idealize.ShloMosaic Idealize.ShloMosaic.ValueIdx

/-- The input's shape, [8, 64, 64, 64]. -/
abbrev SX : Shape := ⟨4, ![8, 64, 64, 64]⟩
/-- The flattened result's shape, [8, 64, 4096]. -/
abbrev SO : Shape := ⟨3, ![8, 64, 4096]⟩

/-- Pixel `n` of the flattened plane of batch `b`, channel `c`: row `n / 64`, column `n % 64`. -/
def pix (b : Fin 8) (c : Fin 64) (n : Fin 4096) : SX.Idx :=
  ix4 b c ⟨n.val / 64, by have := n.isLt; omega⟩ ⟨n.val % 64, by omega⟩

/-- The channel mean at pixel `n`: the sum over the 64 channels, from the zero word, divided by the word of 64.0. -/
def avg (x : SX.Idx → EReal) (b : Fin 8) (n : Fin 4096) : EReal :=
  Ideal.div (Ideal.ofBits .f32 0x00000000#32 + ∑ c : Fin 64, x (pix b c n)) (Ideal.ofBits .f32 0x42800000#32)

/-! ### The tiled arrangement -/

/-- The largest channel mean of batch `b`: the fold of `max` from the word of −∞. -/
def gmax (x : SX.Idx → EReal) (b : Fin 8) : EReal :=
  (Finset.univ : Finset (Fin 4096)).fold max (Ideal.ofBits .f32 0xFF800000#32) (fun n => avg x b n)

/-- The smallest channel mean of batch `b`: the fold of `min` from the word of +∞. -/
def gmin (x : SX.Idx → EReal) (b : Fin 8) : EReal :=
  (Finset.univ : Finset (Fin 4096)).fold min (Ideal.ofBits .f32 0x7F800000#32) (fun n => avg x b n)

/-- The shift of query `i`: the larger of its mean times the largest mean and its mean times the smallest. -/
def kmax (x : SX.Idx → EReal) (b : Fin 8) (i : Fin 4096) : EReal :=
  max (avg x b i * gmax x b) (avg x b i * gmin x b)

/-- The weight of key `k` for query `i`. -/
def kw (x : SX.Idx → EReal) (b : Fin 8) (k i : Fin 4096) : EReal :=
  Ideal.exp (avg x b k * avg x b i - kmax x b i)

/-- Key `r` of tile `t`: `512 t + r`. -/
def key (t : Fin 8) (r : Fin 512) : Fin 4096 := ⟨t.val * 512 + r.val, by have := t.isLt; have := r.isLt; omega⟩

/-- Tile `t`'s part of the numerator of (b, c, i). -/
def accPart (x : SX.Idx → EReal) (b : Fin 8) (c : Fin 64) (i : Fin 4096) (t : Fin 8) : EReal :=
  ∑ r : Fin 512, x (pix b c (key t r)) * kw x b (key t r) i

/-- Tile `t`'s part of the denominator of (b, i): the weights against the bf16 word of 1.0. -/
def lPart (x : SX.Idx → EReal) (b : Fin 8) (i : Fin 4096) (t : Fin 8) : EReal :=
  ∑ r : Fin 512, Ideal.ofBits .bf16 0x3F80#16 * kw x b (key t r) i

/-- The tiled result: numerator and denominator summed over the eight tiles from the zero word, then divided. -/
def kerOut (x : SX.Idx → EReal) (b : Fin 8) (c : Fin 64) (i : Fin 4096) : EReal :=
  Ideal.div (Ideal.ofBits .f32 0x00000000#32 + ∑ t : Fin 8, accPart x b c i t)
    (Ideal.ofBits .f32 0x00000000#32 + ∑ t : Fin 8, lPart x b i t)

/-! ### The normalise-first arrangement -/

/-- The row maximum of query `i`'s scores, from the word of −∞ (taken once more against that word). -/
def refMax (x : SX.Idx → EReal) (b : Fin 8) (i : Fin 4096) : EReal :=
  max (Ideal.ofBits .f32 0xFF800000#32)
    ((Finset.univ : Finset (Fin 4096)).fold max (Ideal.ofBits .f32 0xFF800000#32) (fun j => avg x b i * avg x b j))

/-- The unnormalised weight of key `j` for query `i`. -/
def rwt (x : SX.Idx → EReal) (b : Fin 8) (i j : Fin 4096) : EReal :=
  Ideal.exp (avg x b i * avg x b j - refMax x b i)

/-- The row sum of query `i`'s weights, from the zero word. -/
def rsum (x : SX.Idx → EReal) (b : Fin 8) (i : Fin 4096) : EReal :=
  Ideal.ofBits .f32 0x00000000#32 + ∑ j : Fin 4096, rwt x b i j

/-- The normalise-first result. -/
def refOut (x : SX.Idx → EReal) (b : Fin 8) (c : Fin 64) (n : Fin 4096) : EReal :=
  ∑ m : Fin 4096, x (pix b c m) * Ideal.div (rwt x b n m) (rsum x b n)

end Cert.Saam

end
-- ==== Proof.Blocks.lean ====
/-
  The 8 × 8 grid of the kernel: point t is (batch, key tile) = (t / 8, t % 8). The mean row, the shift row and the result
  block move with the batch, the value block with both; so each input block at a point is a literal rectangle of the
  array the region finds, and the scratch buffers after a point are one visit's update of what the point before left
  (of zero at tile 0).
-/
import proofs.«428967_j45646912422425_3_alg».proof.Proof.Pieces
import proofs.«428967_j45646912422425_3_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Saam.Blocks

open Cert.KernelIdeal Cert.KernelIdeal.Gen Cert.Saam.Pieces

variable {F : FTy → Type} [FloatOps F]
variable (m : (ℓ : Loc nD τ sig) → Buf (Elt F) ℓ)

/-- Grid point `t` of the 8 × 8 grid is (batch, tile) = (t / 8, t % 8). -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The block indices of the four windows at point `t`: the mean row, the shift row and the result block of batch
    `t / 8`; the value tile `t % 8` of batch `t / 8`. -/
theorem idx_facts0 : ∀ t : Fin cfg0.N, win0_0.index t 0 = t.val / 8 ∧ win0_0.index t 1 = 0 ∧ win0_0.index t 2 = 0 :=
  (by decide +kernel : ∀ t : Fin grid0.N, win0_0.index t 0 = t.val / 8 ∧ win0_0.index t 1 = 0 ∧ win0_0.index t 2 = 0)
theorem idx_facts1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx_facts2 : ∀ t : Fin cfg0.N, win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8)
theorem idx_facts3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

theorem N64 : cfg0.N = 64 := N_0

/-- The batch of grid point `t`. -/
def bOf (t : Fin cfg0.N) : Fin 8 := ⟨t.val / 8, by have h : t.val < 64 := lt_of_lt_of_eq t.isLt N64; omega⟩
/-- The key tile of grid point `t`. -/
def kOf (t : Fin cfg0.N) : Fin 8 := ⟨t.val % 8, by omega⟩

/-- The input blocks at a point, at their literal types. -/
abbrev xblk0 (c : Dev nD) (t : Fin cfg0.N) : Vec F S1x1x4096 .f32 := iblk m c 0 t
abbrev xblk1 (c : Dev nD) (t : Fin cfg0.N) : Vec F S1x1x4096 .f32 := iblk m c 1 t
abbrev xblk2 (c : Dev nD) (t : Fin cfg0.N) : Vec F S1x64x512 .f32 := iblk m c 2 t
/-- The arrays the region finds, at their literal types. -/
abbrev arr13 (c : Dev nD) : Vec F S8x1x4096 .f32 := V m c main_v13
abbrev arr14 (c : Dev nD) : Vec F S8x1x4096 .f32 := V m c main_v14
abbrev arr0 (c : Dev nD) : Vec F S8x64x4096 .f32 := V m c main_v0

/-- The mean-row block at point `t` is row `t / 8` of the mean array. -/
theorem xblk0_apply (c : Dev nD) (t : Fin cfg0.N) (q : Fin 4096) :
    xblk0 m c t (ix3 0 0 q) = arr13 m c (ix3 (bOf t) 0 q) := by
  have hi := idx_facts0 t
  unfold xblk0 iblk
  rw [View.read_apply]
  show V m c main_v13 _ = V m c main_v13 _
  congr 1
  funext a
  apply Fin.ext
  match a with
  | ⟨0, _⟩ => show win0_0.index t 0 * 1 + 1 * 0 = t.val / 8; rw [hi.1]; omega
  | ⟨1, _⟩ => show win0_0.index t 1 * 1 + 1 * 0 = 0; rw [hi.2.1]
  | ⟨2, _⟩ => show win0_0.index t 2 * 4096 + 1 * q.val = q.val; rw [hi.2.2]; omega

/-- The shift-row block at point `t` is row `t / 8` of the shift array. -/
theorem xblk1_apply (c : Dev nD) (t : Fin cfg0.N) (q : Fin 4096) :
    xblk1 m c t (ix3 0 0 q) = arr14 m c (ix3 (bOf t) 0 q) := by
  have hi := idx_facts1 t
  unfold xblk1 iblk
  rw [View.read_apply]
  show V m c main_v14 _ = V m c main_v14 _
  congr 1
  funext a
  apply Fin.ext
  match a with
  | ⟨0, _⟩ => show win0_1.index t 0 * 1 + 1 * 0 = t.val / 8; rw [hi.1]; omega
  | ⟨1, _⟩ => show win0_1.index t 1 * 1 + 1 * 0 = 0; rw [hi.2.1]
  | ⟨2, _⟩ => show win0_1.index t 2 * 4096 + 1 * q.val = q.val; rw [hi.2.2]; omega

/-- The value block at point `t` holds the keys `512 (t % 8) + r` of batch `t / 8`. -/
theorem xblk2_apply (c : Dev nD) (t : Fin cfg0.N) (ch : Fin 64) (r : Fin 512) :
    xblk2 m c t (ix3 0 ch r) = arr0 m c (ix3 (bOf t) ch (key (kOf t) r)) := by
  have hi := idx_facts2 t
  unfold xblk2 iblk
  rw [View.read_apply]
  show V m c main_v0 _ = V m c main_v0 _
  congr 1
  funext a
  apply Fin.ext
  match a with
  | ⟨0, _⟩ => show win0_2.index t 0 * 1 + 1 * 0 = t.val / 8; rw [hi.1]; omega
  | ⟨1, _⟩ => show win0_2.index t 1 * 64 + 1 * ch.val = ch.val; rw [hi.2.1]; omega
  | ⟨2, _⟩ => show win0_2.index t 2 * 512 + 1 * r.val = t.val % 8 * 512 + r.val; rw [hi.2.2]; omega

/-- The sub-row of means the body loads at point `t` is the means of the keys of tile `t % 8`. -/
theorem subAvg_apply (t : Fin cfg0.N) (x0 : Vec F S1x1x4096 .f32) (r : Fin 512) :
    subAvg (grid0.coords t) x0 (ix3 0 0 r) = x0 (ix3 0 0 (key (kOf t) r)) := by
  have hk := (coords_facts t).2
  unfold subAvg View.ld
  congr 1
  funext a
  apply Fin.ext
  have ho := congrFun (k0_off1_eq (grid0.coords t))
  match a with
  | ⟨0, _⟩ => show k0_off1 (grid0.coords t) 0 + 1 * 0 = 0; rw [ho 0]; rfl
  | ⟨1, _⟩ => show k0_off1 (grid0.coords t) 1 + 1 * 0 = 0; rw [ho 1]; rfl
  | ⟨2, _⟩ => show k0_off1 (grid0.coords t) 2 + 1 * r.val = t.val % 8 * 512 + r.val; rw [ho 2]; show 512 * (grid0.coords t 1).val + 1 * r.val = _; rw [hk]; omega

/-! ### What the two scratch buffers and the result block hold after each point, as one visit's update of what the
    point before left -/

/-- At the first tile of a batch (t % 8 = 0) both scratch buffers are one visit's update of zero. -/
theorem outs_first (c : Dev nD) (t : Fin cfg0.N) (h0 : t.val % 8 = 0) :
    (outsAt0 m c t.val t.isLt).2.1 = stepL (grid0.coords t) (xblk0 m c t) (xblk1 m c t) k0_pay3
    ∧ (outsAt0 m c t.val t.isLt).2.2 = stepAcc (grid0.coords t) (xblk0 m c t) (xblk1 m c t) (xblk2 m c t) k0_pay4 := by
  have h1 : ¬t.val % 8 = 7 := by omega
  rw [outsAt0_A m c t h0 h1]
  dsimp only
  exact ⟨sA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
    sA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)⟩

/-- At a later tile both scratch buffers are one visit's update of what the point before left. -/
theorem outs_later (c : Dev nD) (t : Fin cfg0.N) (h0 : ¬t.val % 8 = 0) :
    (outsAt0 m c t.val t.isLt).2.1 = stepL (grid0.coords t) (xblk0 m c t) (xblk1 m c t) (outsAt0 m c (t.val - 1) (Nat.lt_of_le_of_lt (Nat.sub_le _ _) t.isLt)).2.1
    ∧ (outsAt0 m c t.val t.isLt).2.2 = stepAcc (grid0.coords t) (xblk0 m c t) (xblk1 m c t) (xblk2 m c t) (outsAt0 m c (t.val - 1) (Nat.lt_of_le_of_lt (Nat.sub_le _ _) t.isLt)).2.2 := by
  by_cases h1 : t.val % 8 = 7
  · rw [outsAt0_C m c t h0 h1]
    dsimp only
    exact ⟨sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨sB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      sB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩

/-- At the last tile of a batch (t % 8 = 7) the result block is the quotient of the two scratch buffers as that
    point leaves them. -/
theorem outs_last (c : Dev nD) (t : Fin cfg0.N) (h1 : t.val % 8 = 7) :
    (outsAt0 m c t.val t.isLt).1 = k0_pay2 (outsAt0 m c t.val t.isLt).2.2 (outsAt0 m c t.val t.isLt).2.1 := by
  have h0 : ¬t.val % 8 = 0 := by omega
  rw [(outs_later m c t h0).1, (outs_later m c t h0).2, outsAt0_C m c t h0 h1]
  dsimp only
  exact oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.Saam.Blocks
end
-- ==== Proof.Payloads.lean ====
/-
  The kernel body's arithmetic, read at an index, at the ideal values.

  Each payload of the body is a chain of pointwise operations (add, multiply, subtract, divide, exp, a change of float
  format, which is the identity on the extended reals) and layout operations (a shape cast that drops or adds a leading
  unit axis, a transpose of a row into a column, a row or a column broadcast over a matrix, a slice of the first row) around
  two matrix products into a zero accumulator. Read at explicit coordinates:

  * the two resets store the zero word everywhere;
  * the weight of key `r` of the tile for query `i` is `exp (a r · a i − μ i)`;
  * the numerator's update adds, to what it holds at `(c, i)`, the sum over the tile's 512 keys of `x c r` times that weight;
  * the denominator's tile part is the sum over the tile's 512 keys of the bf16 word of one times that weight
    (row 0 of a product whose left operand is an 8 × 512 matrix of ones);
  * the denominator's update is a pointwise sum, and the final store is the pointwise quotient of the numerator by the
    denominator's row broadcast over the 64 channels.
-/
import proofs.«428967_j45646912422425_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Saam.Pay

open Cert.KernelIdeal Cert.KernelIdeal.Gen Idealize.ShloMosaic Idealize.ShloMosaic.ValueIdx
open scoped BigOperators

/-! ## A column broadcast over a matrix -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products: operand indices axis by axis, then the product at an index -/

/-- The left operand's index on axis 0 is the output's row. -/
theorem lhs64_0 (j : S64x4096.Idx) (q : dot_S64x512_S512x4096_S64x4096_1_0_0_1_n_n.contr.Idx) :
    (dot_S64x512_S512x4096_S64x4096_1_0_0_1_n_n.lhsIdx j q 0).val = (j 0).val := by
  unfold DotDims.lhsIdx
  rw [dif_neg (show ¬(0 : Fin S64x512.rank) ∈ dot_S64x512_S512x4096_S64x4096_1_0_0_1_n_n.lhsBatch by decide), dif_pos (show (0 : Fin S64x512.rank) ∈ dot_S64x512_S512x4096_S64x4096_1_0_0_1_n_n.lhsNonContracting by decide)]
  rfl
/-- The left operand's index on axis 1 is the contraction position. -/
theorem lhs64_1 (j : S64x4096.Idx) (q : dot_S64x512_S512x4096_S64x4096_1_0_0_1_n_n.contr.Idx) :
    (dot_S64x512_S512x4096_S64x4096_1_0_0_1_n_n.lhsIdx j q 1).val = (q ⟨0, by decide⟩).val :=
  dot_S64x512_S512x4096_S64x4096_1_0_0_1_n_n.lhsIdx_val_of_single rfl j q
/-- The right operand's index on axis 0 is the contraction position. -/
theorem rhs64_0 (j : S64x4096.Idx) (q : dot_S64x512_S512x4096_S64x4096_1_0_0_1_n_n.contr.Idx) :
    (dot_S64x512_S512x4096_S64x4096_1_0_0_1_n_n.rhsIdx j q 0).val = (q ⟨0, by decide⟩).val :=
  dot_S64x512_S512x4096_S64x4096_1_0_0_1_n_n.rhsIdx_val_of_single rfl j q
/-- The right operand's index on axis 1 is the output's column. -/
theorem rhs64_1 (j : S64x4096.Idx) (q : dot_S64x512_S512x4096_S64x4096_1_0_0_1_n_n.contr.Idx) :
    (dot_S64x512_S512x4096_S64x4096_1_0_0_1_n_n.rhsIdx j q 1).val = (j 1).val := by
  unfold DotDims.rhsIdx
  rw [dif_neg (show ¬(1 : Fin S512x4096.rank) ∈ dot_S64x512_S512x4096_S64x4096_1_0_0_1_n_n.rhsBatch by decide), dif_pos (show (1 : Fin S512x4096.rank) ∈ dot_S64x512_S512x4096_S64x4096_1_0_0_1_n_n.rhsNonContracting by decide)]
  rfl

/-- A [64, 512] by [512, 4096] product into the zero accumulator, read at `(c, i)`: the sum over the 512 contraction
    positions of the row's entry times the column's. -/
theorem matmul64_apply (l : FVec Ideal S64x512 .bf16) (r : FVec Ideal S512x4096 .bf16) (c : Fin 64) (i : Fin 4096) :
    matmul dot_S64x512_S512x4096_S64x4096_1_0_0_1_n_n none l r (constant (F := Ideal) S64x4096 .f32 0x00000000#32) (ix2 c i)
      = ∑ k : Fin 512, l (ix2 c k) * r (ix2 k i) := by
  simp only [matmul]
  rw [Ideal.matmul_constant_zero_apply, ← Equiv.sum_comp (contrEquiv1 dot_S64x512_S512x4096_S64x4096_1_0_0_1_n_n 512 rfl rfl).symm]
  refine Finset.sum_congr rfl fun k _ => ?_
  have hk := contrEquiv1_symm_val dot_S64x512_S512x4096_S64x4096_1_0_0_1_n_n 512 rfl rfl k
  have el : dot_S64x512_S512x4096_S64x4096_1_0_0_1_n_n.lhsIdx (ix2 c i) ((contrEquiv1 dot_S64x512_S512x4096_S64x4096_1_0_0_1_n_n 512 rfl rfl).symm k) = ix2 c k := funext fun a => Fin.ext (by
    match a with
    | ⟨0, _⟩ => exact lhs64_0 _ _
    | ⟨1, _⟩ => exact (lhs64_1 _ _).trans hk)
  have er : dot_S64x512_S512x4096_S64x4096_1_0_0_1_n_n.rhsIdx (ix2 c i) ((contrEquiv1 dot_S64x512_S512x4096_S64x4096_1_0_0_1_n_n 512 rfl rfl).symm k) = ix2 k i := funext fun a => Fin.ext (by
    match a with
    | ⟨0, _⟩ => exact (rhs64_0 _ _).trans hk
    | ⟨1, _⟩ => exact rhs64_1 _ _)
  rw [el, er]

/-- The left operand's index on axis 0 is the output's row. -/
theorem lhs8_0 (j : S8x4096.Idx) (q : dot_S8x512_S512x4096_S8x4096_1_0_0_1_n_n.contr.Idx) :
    (dot_S8x512_S512x4096_S8x4096_1_0_0_1_n_n.lhsIdx j q 0).val = (j 0).val := by
  unfold DotDims.lhsIdx
  rw [dif_neg (show ¬(0 : Fin S8x512.rank) ∈ dot_S8x512_S512x4096_S8x4096_1_0_0_1_n_n.lhsBatch by decide), dif_pos (show (0 : Fin S8x512.rank) ∈ dot_S8x512_S512x4096_S8x4096_1_0_0_1_n_n.lhsNonContracting by decide)]
  rfl
/-- The left operand's index on axis 1 is the contraction position. -/
theorem lhs8_1 (j : S8x4096.Idx) (q : dot_S8x512_S512x4096_S8x4096_1_0_0_1_n_n.contr.Idx) :
    (dot_S8x512_S512x4096_S8x4096_1_0_0_1_n_n.lhsIdx j q 1).val = (q ⟨0, by decide⟩).val :=
  dot_S8x512_S512x4096_S8x4096_1_0_0_1_n_n.lhsIdx_val_of_single rfl j q
/-- The right operand's index on axis 0 is the contraction position. -/
theorem rhs8_0 (j : S8x4096.Idx) (q : dot_S8x512_S512x4096_S8x4096_1_0_0_1_n_n.contr.Idx) :
    (dot_S8x512_S512x4096_S8x4096_1_0_0_1_n_n.rhsIdx j q 0).val = (q ⟨0, by decide⟩).val :=
  dot_S8x512_S512x4096_S8x4096_1_0_0_1_n_n.rhsIdx_val_of_single rfl j q
/-- The right operand's index on axis 1 is the output's column. -/
theorem rhs8_1 (j : S8x4096.Idx) (q : dot_S8x512_S512x4096_S8x4096_1_0_0_1_n_n.contr.Idx) :
    (dot_S8x512_S512x4096_S8x4096_1_0_0_1_n_n.rhsIdx j q 1).val = (j 1).val := by
  unfold DotDims.rhsIdx
  rw [dif_neg (show ¬(1 : Fin S512x4096.rank) ∈ dot_S8x512_S512x4096_S8x4096_1_0_0_1_n_n.rhsBatch by decide), dif_pos (show (1 : Fin S512x4096.rank) ∈ dot_S8x512_S512x4096_S8x4096_1_0_0_1_n_n.rhsNonContracting by decide)]
  rfl

/-- A [8, 512] by [512, 4096] product into the zero accumulator, read at `(c, i)`: the sum over the 512 contraction
    positions of the row's entry times the column's. -/
theorem matmul8_apply (l : FVec Ideal S8x512 .bf16) (r : FVec Ideal S512x4096 .bf16) (c : Fin 8) (i : Fin 4096) :
    matmul dot_S8x512_S512x4096_S8x4096_1_0_0_1_n_n none l r (constant (F := Ideal) S8x4096 .f32 0x00000000#32) (ix2 c i)
      = ∑ k : Fin 512, l (ix2 c k) * r (ix2 k i) := by
  simp only [matmul]
  rw [Ideal.matmul_constant_zero_apply, ← Equiv.sum_comp (contrEquiv1 dot_S8x512_S512x4096_S8x4096_1_0_0_1_n_n 512 rfl rfl).symm]
  refine Finset.sum_congr rfl fun k _ => ?_
  have hk := contrEquiv1_symm_val dot_S8x512_S512x4096_S8x4096_1_0_0_1_n_n 512 rfl rfl k
  have el : dot_S8x512_S512x4096_S8x4096_1_0_0_1_n_n.lhsIdx (ix2 c i) ((contrEquiv1 dot_S8x512_S512x4096_S8x4096_1_0_0_1_n_n 512 rfl rfl).symm k) = ix2 c k := funext fun a => Fin.ext (by
    match a with
    | ⟨0, _⟩ => exact lhs8_0 _ _
    | ⟨1, _⟩ => exact (lhs8_1 _ _).trans hk)
  have er : dot_S8x512_S512x4096_S8x4096_1_0_0_1_n_n.rhsIdx (ix2 c i) ((contrEquiv1 dot_S8x512_S512x4096_S8x4096_1_0_0_1_n_n 512 rfl rfl).symm k) = ix2 k i := funext fun a => Fin.ext (by
    match a with
    | ⟨0, _⟩ => exact (rhs8_0 _ _).trans hk
    | ⟨1, _⟩ => exact rhs8_1 _ _)
  rw [el, er]

/-! ## The payloads at an index -/

/-- The denominator's reset stores the zero word. -/
theorem pay3_apply (i : Fin 4096) : k0_pay3 (F := Ideal) (ix2 0 i) = Ideal.ofBits .f32 0x00000000#32 := by
  unfold k0_pay3
  rw [shapeCast_self]
  rfl

/-- The numerator's reset stores the zero word. -/
theorem pay4_apply (c : Fin 64) (i : Fin 4096) : k0_pay4 (F := Ideal) (ix2 c i) = Ideal.ofBits .f32 0x00000000#32 := by
  unfold k0_pay4
  rw [shapeCast_self]
  rfl

/-- The denominator's update: what it holds plus the tile's part. -/
theorem pay1_apply (v31 : Vec Ideal S1x4096 .f32) (v32 : FVec Ideal S1x4096 .f32) (i : Fin 4096) :
    k0_pay1 v31 v32 (ix2 0 i) = v31 (ix2 0 i) + v32 (ix2 0 i) := by
  unfold k0_pay1
  rw [shapeCast_self]
  rfl

/-- The final store: the numerator over the denominator of the same query. -/
theorem pay2_apply (v40 : Vec Ideal S64x4096 .f32) (v41 : Vec Ideal S1x4096 .f32) (c : Fin 64) (i : Fin 4096) :
    k0_pay2 v40 v41 (ix3 0 c i) = Ideal.div (v40 (ix2 c i)) (v41 (ix2 0 i)) := by
  unfold k0_pay2
  refine (shapeCast_ab_1ab_apply _ _ 0 c i).trans ?_
  rw [divf_apply]
  exact congrArg (Ideal.div (v40 (ix2 c i))) (broadcastTo_1b_ab_apply v41 _ c i)

/-- The weight of key `r` of the tile for query `i`. -/
theorem pay5_apply (v5 v7 : Vec Ideal S1x1x4096 .f32) (v10 : Vec Ideal S1x1x512 .f32) (r : Fin 512) (i : Fin 4096) :
    k0_pay5 v5 v7 v10 (ix2 r i) = Ideal.exp (v10 (ix3 0 0 r) * v5 (ix3 0 0 i) - v7 (ix3 0 0 i)) := by
  unfold k0_pay5
  rw [truncf_apply]
  show Ideal.exp (_ * _ - _) = _
  have e10 : broadcastTo S512x4096 (transpose S512x1 [1, 0] (shapeCast S1x512 v10 shapeCasts_S1x1x512_S1x512) transposes_S1x512_p1_0_S512x1) broadcasts_S512x1_S512x4096 (ix2 r i)
      = v10 (ix3 0 0 r) :=
    (broadcastTo_a1_ab_apply _ _ r i).trans ((transpose_ix2_apply _ _ r 0).trans (shapeCast_1ab_ab_apply v10 _ 0 r))
  have e5 : broadcastTo S512x4096 (shapeCast S1x4096 v5 shapeCasts_S1x1x4096_S1x4096) broadcasts_S1x4096_S512x4096 (ix2 r i)
      = v5 (ix3 0 0 i) :=
    (broadcastTo_1b_ab_apply _ _ r i).trans (shapeCast_1ab_ab_apply v5 _ 0 i)
  have e7 : broadcastTo S512x4096 (shapeCast S1x4096 v7 shapeCasts_S1x1x4096_S1x4096) broadcasts_S1x4096_S512x4096 (ix2 r i)
      = v7 (ix3 0 0 i) :=
    (broadcastTo_1b_ab_apply _ _ r i).trans (shapeCast_1ab_ab_apply v7 _ 0 i)
  rw [e10, e5, e7]

/-- The numerator's update: what it holds plus the tile's 512 keys, each against its weight. -/
theorem pay6_apply (v5 v7 : Vec Ideal S1x1x4096 .f32) (v10 : Vec Ideal S1x1x512 .f32) (v12 : Vec Ideal S1x64x512 .f32)
    (v23 : Vec Ideal S64x4096 .f32) (c : Fin 64) (i : Fin 4096) :
    k0_pay6 v5 v7 v10 v12 v23 (ix2 c i)
      = v23 (ix2 c i) + ∑ r : Fin 512, v12 (ix3 0 c r) * Ideal.exp (v10 (ix3 0 0 r) * v5 (ix3 0 0 i) - v7 (ix3 0 0 i)) := by
  unfold k0_pay6
  rw [shapeCast_self, addf_apply]
  refine congrArg (v23 (ix2 c i) + ·) ?_
  refine (matmul64_apply _ _ c i).trans ?_
  refine Finset.sum_congr rfl fun r _ => ?_
  rw [pay5_apply, truncf_apply]
  exact congrArg (· * _) (shapeCast_1ab_ab_apply v12 _ c r)

/-- The denominator's tile part: the tile's 512 weights, each against the bf16 word of one. -/
theorem pay7_apply (v5 v7 : Vec Ideal S1x1x4096 .f32) (v10 : Vec Ideal S1x1x512 .f32) (i : Fin 4096) :
    k0_pay7 v5 v7 v10 (ix2 0 i)
      = ∑ r : Fin 512, Ideal.ofBits .bf16 0x3F80#16 * Ideal.exp (v10 (ix3 0 0 r) * v5 (ix3 0 0 i) - v7 (ix3 0 0 i)) := by
  unfold k0_pay7
  refine (slice2_axis0_apply 0 _ _ 0 i 0 rfl).trans ?_
  refine (matmul8_apply _ _ 0 i).trans ?_
  refine Finset.sum_congr rfl fun r _ => ?_
  rw [pay5_apply]
  rfl

end Cert.Saam.Pay

end
-- ==== Proof.HostPre.lean ====
/-
  The arrays the host computes before the region, read at an index.

  Before its one region the program reshapes the input x[b, c, h, w] to [8, 64, 4096] (pixel n = 64 h + w), takes the
  channel mean a[b, n] = (0 + ∑ c, x[b, c, n]) / 64, its largest and smallest value over the 4096 pixels of a batch
  (folds of max and min from −∞ and +∞), the shift  max (a[b, n] · max a[b, ·]) (a[b, n] · min a[b, ·]),  and reshapes the
  mean and the shift to [8, 1, 4096].  Each array is named here as a function of the input and read at an index
  given by coordinates; the three arrays the region reads are then the flattened input, the mean and the shift of
  the specification.
-/
import proofs.«428967_j45646912422425_3_alg».proof.Proof.Gen.KernelIdeal.Frame
import proofs.«428967_j45646912422425_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.Saam

open Cert.KernelIdeal Cert.KernelIdeal.Gen Idealize.ShloMosaic Idealize.ShloMosaic.TcCoe Idealize.ShloMosaic.ValueIdx Idealize.SL.Sem

/-! ## The arrays as functions of the input -/

/-- The input with its 64 × 64 plane flattened to 4096 pixels. -/
def flatArr (x : FVec Ideal S8x64x64x64 .f32) : FVec Ideal S8x64x4096 .f32 :=
  shapeCast S8x64x4096 x shapeCasts_S8x64x64x64_S8x64x4096

/-- The sum over the channels, from the zero word. -/
def sumArr (x : FVec Ideal S8x64x64x64 .f32) : FVec Ideal S8x4096 .f32 :=
  Host.reduceAdd (flatArr x) (constant (F := Ideal) S_ .f32 0x00000000#32) reducesTo_S8x64x4096_S8x4096_d1 h_S_

/-- The channel mean: the sum divided by the word of 64.0. -/
def meanArr (x : FVec Ideal S8x64x64x64 .f32) : FVec Ideal S8x4096 .f32 :=
  Host.divf (sumArr x) (broadcastInDim S8x4096 ![] bcast_S_S8x4096 (constant (F := Ideal) S_ .f32 0x42800000#32))

/-- The largest mean of each batch: the fold of the maximum from the word of −∞. -/
def maxArr (x : FVec Ideal S8x64x64x64 .f32) : FVec Ideal S8 .f32 :=
  Host.reduce FloatOps.maximumf (meanArr x) (constant (F := Ideal) S_ .f32 0xFF800000#32) reducesTo_S8x4096_S8_d1 h_S_

/-- The smallest mean of each batch: the fold of the minimum from the word of +∞. -/
def minArr (x : FVec Ideal S8x64x64x64 .f32) : FVec Ideal S8 .f32 :=
  Host.reduce FloatOps.minimumf (meanArr x) (constant (F := Ideal) S_ .f32 0x7F800000#32) reducesTo_S8x4096_S8_d1 h_S_

/-- A per-batch value spread over the pixels: [8] → [8, 1] → [8, 4096]. -/
def spread (y : FVec Ideal S8 .f32) : FVec Ideal S8x4096 .f32 :=
  broadcastInDim S8x4096 ![0, 1] bcast_S8x1_S8x4096_0_1 (broadcastInDim S8x1 ![0] bcast_S8_S8x1_0 y)

/-- The shift: the larger of mean · largest mean and mean · smallest mean. -/
def shiftArr (x : FVec Ideal S8x64x64x64 .f32) : FVec Ideal S8x4096 .f32 :=
  maximumf (mulf (meanArr x) (spread (maxArr x))) (mulf (meanArr x) (spread (minArr x)))

/-- A [8, 4096] array with a unit axis inserted. -/
def rowArr (y : FVec Ideal S8x4096 .f32) : FVec Ideal S8x1x4096 .f32 :=
  shapeCast S8x1x4096 y shapeCasts_S8x4096_S8x1x4096

/-! ## Each array at an index -/

/-- Entry (b, c, n) of the flattened input is the input at pixel n: both have row-major position
    (64 b + c) · 4096 + n. -/
theorem flatArr_apply (x : FVec Ideal S8x64x64x64 .f32) (b : Fin 8) (ch : Fin 64) (n : Fin 4096) :
    flatArr x (ix3 b ch n) = x (pix b ch n) := by
  unfold flatArr
  exact shapeCast_apply x shapeCasts_S8x64x64x64_S8x64x4096 (ix3 b ch n) (pix b ch n)
    (by rewrite [Shape.rowMajor_val_four, Shape.rowMajor_val_three]
        show ((b.val * 64 + ch.val) * 64 + n.val / 64) * 64 + n.val % 64 = (b.val * 64 + ch.val) * 4096 + n.val
        omega)

/-- Entry (b, n) of the channel sum: the zero word plus the sum of the 64 channels at pixel n. -/
theorem sumArr_apply (x : FVec Ideal S8x64x64x64 .f32) (b : Fin 8) (n : Fin 4096) :
    sumArr x (ix2 b n) = Ideal.ofBits .f32 0x00000000#32 + ∑ c : Fin 64, x (pix b c n) := by
  unfold sumArr
  simp only [Host.reduceAdd, Ideal.hostReduceAdd_def]
  rw [Ideal.hostReduceAdd_single reducesTo_S8x64x4096_S8x4096_d1 (by decide)]
  refine congrArg (_ + ·) (Finset.sum_congr rfl fun k _ => ?_)
  refine Eq.trans ?_ (flatArr_apply x b k n)
  exact congrArg (flatArr x) (funext fun a => Fin.ext (by match a with | ⟨0, _⟩ => rfl | ⟨1, _⟩ => rfl | ⟨2, _⟩ => rfl))

/-- Entry (b, n) of the mean is the specification's channel mean. -/
theorem meanArr_apply (x : FVec Ideal S8x64x64x64 .f32) (b : Fin 8) (n : Fin 4096) :
    meanArr x (ix2 b n) = avg x b n := by
  show Ideal.div (sumArr x (ix2 b n)) (Ideal.ofBits .f32 0x42800000#32) = _
  rw [sumArr_apply]
  rfl

/-- Over batch b, the index with pixel n inserted is (b, n). -/
theorem lift_batch (h : S8x4096.Reduces [1] S8) (b : Fin 8) (n : Fin 4096) : h.lift (ix1 b) n = ix2 b n :=
  funext fun a => Fin.ext (by match a with | ⟨0, _⟩ => rfl | ⟨1, _⟩ => rfl)

/-- Entry b of the largest mean is the specification's fold of max. -/
theorem maxArr_apply (x : FVec Ideal S8x64x64x64 .f32) (b : Fin 8) : maxArr x (ix1 b) = gmax x b := by
  have h : S8x4096.Reduces [1] S8 := by decide
  unfold maxArr gmax
  rw [Host.reduce_eq_fold_single FloatOps.maximumf (meanArr x) _ reducesTo_S8x4096_S8_d1 h h_S_ (ix1 b)]
  show (Finset.univ : Finset (Fin 4096)).fold max (Ideal.ofBits .f32 0xFF800000#32)
      (fun n : Fin 4096 => meanArr x (h.lift (ix1 b) n)) = _
  exact Finset.fold_congr fun n _ => by rw [lift_batch, meanArr_apply]

/-- Entry b of the smallest mean is the specification's fold of min. -/
theorem minArr_apply (x : FVec Ideal S8x64x64x64 .f32) (b : Fin 8) : minArr x (ix1 b) = gmin x b := by
  have h : S8x4096.Reduces [1] S8 := by decide
  unfold minArr gmin
  rw [Host.reduce_eq_fold_single FloatOps.minimumf (meanArr x) _ reducesTo_S8x4096_S8_d1 h h_S_ (ix1 b)]
  show (Finset.univ : Finset (Fin 4096)).fold min (Ideal.ofBits .f32 0x7F800000#32)
      (fun n : Fin 4096 => meanArr x (h.lift (ix1 b) n)) = _
  exact Finset.fold_congr fun n _ => by rw [lift_batch, meanArr_apply]

/-- A per-batch value spread over the pixels, at (b, n), is the value of batch b. -/
theorem spread_apply (y : FVec Ideal S8 .f32) (b : Fin 8) (n : Fin 4096) : spread y (ix2 b n) = y (ix1 b) := by
  unfold spread
  rw [broadcastInDim_apply _ bcast_S8x1_S8x4096_0_1 _ (ix2 b n) (ix2 b (0 : Fin 1)) (fun a => match a with
    | ⟨0, _⟩ => by show b.val = if (8 : Nat) = 1 then 0 else b.val; rw [if_neg (by decide)]
    | ⟨1, _⟩ => by show 0 = if (1 : Nat) = 1 then 0 else n.val; rw [if_pos rfl])]
  exact broadcastInDim_apply _ bcast_S8_S8x1_0 y (ix2 b (0 : Fin 1)) (ix1 b) (fun a => match a with
    | ⟨0, _⟩ => by show b.val = if (8 : Nat) = 1 then 0 else b.val; rw [if_neg (by decide)])

/-- Entry (b, n) of the shift is the specification's shift of query n. -/
theorem shiftArr_apply (x : FVec Ideal S8x64x64x64 .f32) (b : Fin 8) (n : Fin 4096) :
    shiftArr x (ix2 b n) = kmax x b n := by
  show max (meanArr x (ix2 b n) * spread (maxArr x) (ix2 b n)) (meanArr x (ix2 b n) * spread (minArr x) (ix2 b n)) = _
  rw [spread_apply, spread_apply, meanArr_apply, maxArr_apply, minArr_apply]
  rfl

/-- Entry (b, 0, n) of an array with a unit axis inserted is its entry (b, n). -/
theorem rowArr_apply (y : FVec Ideal S8x4096 .f32) (b : Fin 8) (n : Fin 4096) :
    rowArr y (ix3 b (0 : Fin 1) n) = y (ix2 b n) := by
  unfold rowArr
  exact shapeCast_apply y shapeCasts_S8x4096_S8x1x4096 (ix3 b (0 : Fin 1) n) (ix2 b n)
    (by rewrite [Shape.rowMajor_val_three, Shape.rowMajor_val_two]
        show b.val * 4096 + n.val = (b.val * 1 + 0) * 4096 + n.val
        omega)

/-! ## The arrays the region finds -/

variable (m : (ℓ : Loc nD τ sig) → Buf (Elt Ideal) ℓ)

/-- The region's third operand is the flattened input. -/
theorem V_v0_eq (c : Dev nD) :
    (V m c main_v0 : S8x64x4096.Idx → EReal) = flatArr (m ((c : Thread nD τ).loc main_arg0)) := by
  show StableHlo.after hostOps0 (fun b => m (c, b)) (Proc.devRef .tc main_v0) = _
  after_results
  rfl

/-- The region's first operand is the mean with a unit axis. -/
theorem V_v13_eq (c : Dev nD) :
    (V m c main_v13 : S8x1x4096.Idx → EReal) = rowArr (meanArr (m ((c : Thread nD τ).loc main_arg0))) := by
  show StableHlo.after hostOps0 (fun b => m (c, b)) (Proc.devRef .tc main_v13) = _
  after_results
  rfl

/-- The region's second operand is the shift with a unit axis. -/
theorem V_v14_eq (c : Dev nD) :
    (V m c main_v14 : S8x1x4096.Idx → EReal) = rowArr (shiftArr (m ((c : Thread nD τ).loc main_arg0))) := by
  show StableHlo.after hostOps0 (fun b => m (c, b)) (Proc.devRef .tc main_v14) = _
  after_results
  rfl

theorem V_v0_apply (c : Dev nD) (b : Fin 8) (ch : Fin 64) (n : Fin 4096) :
    (V m c main_v0 : S8x64x4096.Idx → EReal) (ix3 b ch n) = m ((c : Thread nD τ).loc main_arg0) (pix b ch n) := by
  rw [V_v0_eq]
  exact flatArr_apply _ b ch n

theorem V_v13_apply (c : Dev nD) (b : Fin 8) (n : Fin 4096) :
    (V m c main_v13 : S8x1x4096.Idx → EReal) (ix3 b 0 n) = avg (m ((c : Thread nD τ).loc main_arg0)) b n := by
  rw [V_v13_eq]
  exact (rowArr_apply _ b n).trans (meanArr_apply _ b n)

theorem V_v14_apply (c : Dev nD) (b : Fin 8) (n : Fin 4096) :
    (V m c main_v14 : S8x1x4096.Idx → EReal) (ix3 b 0 n) = kmax (m ((c : Thread nD τ).loc main_arg0)) b n := by
  rw [V_v14_eq]
  exact (rowArr_apply _ b n).trans (shiftArr_apply _ b n)

end Cert.Saam

end
-- ==== Proof.KernelValue.lean ====
/-
  The idealized kernel's result, read off its run.

  The grid is 8 batches × 8 key tiles, visited batch by batch. At tile 0 of a batch the two scratch buffers are zeroed,
  at every tile they gain the tile's part of the numerator and of the denominator, and at tile 7 the result block of the
  batch is their quotient. So after point t = 8 b + k the scratch buffers hold the zero word plus the parts of tiles
  0 … k of batch b (by induction on the point), the block written back at t = 8 b + 7 is batch b of the tiled result
  `kerOut`, the eight blocks cover the flattened result array, and the last host line only reshapes it.
-/
import proofs.«428967_j45646912422425_3_alg».proof.Proof.Blocks
import proofs.«428967_j45646912422425_3_alg».proof.Proof.Payloads
import proofs.«428967_j45646912422425_3_alg».proof.Proof.HostPre
import proofs.«428967_j45646912422425_3_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Saam.KV

open Cert.KernelIdeal Cert.KernelIdeal.Gen Cert.Saam.Pieces Cert.Saam.Blocks Cert.Saam.Pay

/-! ### Sums over the tiles visited so far -/

theorem upTo_zero (f : Fin 8 → EReal) : (∑ t : Fin 8, if t.val ≤ 0 then f t else 0) = f 0 := by
  rw [Finset.sum_eq_single (0 : Fin 8)]
  · rfl
  · intro t _ ht
    rw [if_neg]
    intro h
    exact ht (Fin.ext (by show t.val = 0; omega))
  · intro h; exact absurd (Finset.mem_univ _) h

theorem upTo_succ (f : Fin 8 → EReal) (n : ℕ) (h : n + 1 < 8) :
    (∑ t : Fin 8, if t.val ≤ n + 1 then f t else 0) = (∑ t : Fin 8, if t.val ≤ n then f t else 0) + f ⟨n + 1, h⟩ := by
  have e : ∀ t : Fin 8, (if t.val ≤ n + 1 then f t else 0)
      = (if t.val ≤ n then f t else 0) + (if t = ⟨n + 1, h⟩ then f t else 0) := by
    intro t
    by_cases h1 : t.val ≤ n
    · have hne : ¬t = ⟨n + 1, h⟩ := fun e => by have := congrArg Fin.val e; simp at this; omega
      rw [if_pos h1, if_pos (by omega), if_neg hne, add_zero]
    · by_cases h2 : t.val = n + 1
      · rw [if_neg h1, if_pos (by omega), if_pos (Fin.ext h2), zero_add]
      · have hne : ¬t = ⟨n + 1, h⟩ := fun e => h2 (by rw [e])
        rw [if_neg h1, if_neg (by omega), if_neg hne, add_zero]
  rw [Finset.sum_congr rfl (fun t _ => e t), Finset.sum_add_distrib, Finset.sum_ite_eq' Finset.univ (⟨n + 1, h⟩ : Fin 8) f,
    if_pos (Finset.mem_univ _)]

theorem upTo_seven (f : Fin 8 → EReal) : (∑ t : Fin 8, if t.val ≤ 7 then f t else 0) = ∑ t : Fin 8, f t :=
  Finset.sum_congr rfl fun t _ => if_pos (by have := t.isLt; omega)

/-- The denominator of (b, i) after the tiles 0 … n. -/
def lUpTo (x : SX.Idx → EReal) (b : Fin 8) (i : Fin 4096) (n : ℕ) : EReal :=
  Ideal.ofBits .f32 0x00000000#32 + ∑ t : Fin 8, if t.val ≤ n then lPart x b i t else 0

/-- The numerator of (b, c, i) after the tiles 0 … n. -/
def accUpTo (x : SX.Idx → EReal) (b : Fin 8) (ch : Fin 64) (i : Fin 4096) (n : ℕ) : EReal :=
  Ideal.ofBits .f32 0x00000000#32 + ∑ t : Fin 8, if t.val ≤ n then accPart x b ch i t else 0

variable (m : (ℓ : Loc nD τ sig) → Buf (Elt Ideal) ℓ) (ρ : Dev nD → PrngReg)

/-- The input array on device `c`. -/
abbrev xin (c : Dev nD) : SX.Idx → EReal := m ((c : Thread nD τ).loc main_arg0)

/-! ### The input blocks at a point, as values of the mathematics -/

/-- The mean-row block at point `t` holds the channel means of batch `t / 8`. -/
theorem xblk0_avg (c : Dev nD) (t : Fin cfg0.N) (q : Fin 4096) :
    xblk0 m c t (ix3 0 0 q) = avg (xin m c) (bOf t) q :=
  (xblk0_apply m c t q).trans (V_v13_apply m c (bOf t) q)

/-- The shift-row block at point `t` holds the shifts of batch `t / 8`. -/
theorem xblk1_kmax (c : Dev nD) (t : Fin cfg0.N) (q : Fin 4096) :
    xblk1 m c t (ix3 0 0 q) = kmax (xin m c) (bOf t) q :=
  (xblk1_apply m c t q).trans (V_v14_apply m c (bOf t) q)

/-- The value block at point `t` holds the keys of tile `t % 8` of batch `t / 8`. -/
theorem xblk2_pix (c : Dev nD) (t : Fin cfg0.N) (ch : Fin 64) (r : Fin 512) :
    xblk2 m c t (ix3 0 ch r) = xin m c (pix (bOf t) ch (key (kOf t) r)) :=
  (xblk2_apply m c t ch r).trans (V_v0_apply m c (bOf t) ch (key (kOf t) r))

/-! ### One visit, at an index -/

/-- One visit adds to the denominator scratch the part of the point's tile. -/
theorem stepL_at (c : Dev nD) (t : Fin cfg0.N) (l : Vec Ideal S1x4096 .f32) (q : Fin 4096) :
    stepL (grid0.coords t) (xblk0 m c t) (xblk1 m c t) l (ix2 0 q)
      = l (ix2 0 q) + lPart (xin m c) (bOf t) q (kOf t) := by
  unfold stepL
  rw [pay1_apply, pay7_apply]
  unfold lPart kw
  refine congrArg (l (ix2 0 q) + ·) (Finset.sum_congr rfl fun r _ => ?_)
  rw [subAvg_apply, xblk0_avg, xblk0_avg, xblk1_kmax]

/-- One visit adds to the numerator scratch the part of the point's tile. -/
theorem stepAcc_at (c : Dev nD) (t : Fin cfg0.N) (acc : Vec Ideal S64x4096 .f32) (ch : Fin 64) (q : Fin 4096) :
    stepAcc (grid0.coords t) (xblk0 m c t) (xblk1 m c t) (xblk2 m c t) acc (ix2 ch q)
      = acc (ix2 ch q) + accPart (xin m c) (bOf t) ch q (kOf t) := by
  unfold stepAcc
  rw [pay6_apply]
  unfold accPart kw
  refine congrArg (acc (ix2 ch q) + ·) (Finset.sum_congr rfl fun r _ => ?_)
  rw [subAvg_apply, xblk0_avg, xblk0_avg, xblk1_kmax, xblk2_pix]

/-! ### The scratch buffers after each point -/

/-- At the first tile of a batch the scratch buffers hold the zero word plus tile 0's parts. -/
theorem scratch_first (c : Dev nD) (t : Fin cfg0.N) (h0 : t.val % 8 = 0) :
    (∀ q : Fin 4096, (outsAt0 m c t.val t.isLt).2.1 (ix2 0 q) = lUpTo (xin m c) (bOf t) q 0)
    ∧ (∀ (ch : Fin 64) (q : Fin 4096), (outsAt0 m c t.val t.isLt).2.2 (ix2 ch q) = accUpTo (xin m c) (bOf t) ch q 0) := by
  obtain ⟨e1, e2⟩ := outs_first m c t h0
  have hk : kOf t = 0 := Fin.ext h0
  refine ⟨fun q => ?_, fun ch q => ?_⟩
  · rw [e1, stepL_at, pay3_apply, hk]; unfold lUpTo; rw [upTo_zero]
  · rw [e2, stepAcc_at, pay4_apply, hk]; unfold accUpTo; rw [upTo_zero]

/-- After point `n = 8 b + k` the scratch buffers hold the zero word plus the parts of tiles 0 … k of batch b. -/
theorem scratch_eq (c : Dev nD) : ∀ (n : ℕ) (h : n < cfg0.N),
    (∀ q : Fin 4096, (outsAt0 m c n h).2.1 (ix2 0 q) = lUpTo (xin m c) (bOf ⟨n, h⟩) q (n % 8))
    ∧ (∀ (ch : Fin 64) (q : Fin 4096), (outsAt0 m c n h).2.2 (ix2 ch q) = accUpTo (xin m c) (bOf ⟨n, h⟩) ch q (n % 8)) := by
  intro n
  induction n with
  | zero =>
    intro h
    exact scratch_first m c ⟨0, h⟩ rfl
  | succ n ih =>
    intro h
    have hN : n + 1 < 64 := lt_of_lt_of_eq h N64
    by_cases h0 : (n + 1) % 8 = 0
    · have := scratch_first m c ⟨n + 1, h⟩ h0
      rw [h0]
      exact this
    · obtain ⟨e1, e2⟩ := outs_later m c ⟨n + 1, h⟩ h0
      obtain ⟨i1, i2⟩ := ih (Nat.lt_of_succ_lt h)
      have hb : bOf ⟨n, Nat.lt_of_succ_lt h⟩ = bOf ⟨n + 1, h⟩ := Fin.ext (by show n / 8 = (n + 1) / 8; omega)
      have hm : (n + 1) % 8 = n % 8 + 1 := by omega
      have hlt : n % 8 + 1 < 8 := by omega
      have hk : kOf ⟨n + 1, h⟩ = ⟨n % 8 + 1, hlt⟩ := Fin.ext (by show (n + 1) % 8 = n % 8 + 1; omega)
      refine ⟨fun q => ?_, fun ch q => ?_⟩
      · show (outsAt0 m c (⟨n + 1, h⟩ : Fin cfg0.N).val (⟨n + 1, h⟩ : Fin cfg0.N).isLt).2.1 (ix2 0 q) = _
        rw [e1, stepL_at]
        show (outsAt0 m c n (Nat.lt_of_succ_lt h)).2.1 (ix2 0 q) + _ = _
        rw [i1 q, hb, hk, hm]
        unfold lUpTo
        rw [upTo_succ _ _ hlt, add_assoc]
      · show (outsAt0 m c (⟨n + 1, h⟩ : Fin cfg0.N).val (⟨n + 1, h⟩ : Fin cfg0.N).isLt).2.2 (ix2 ch q) = _
        rw [e2, stepAcc_at]
        show (outsAt0 m c n (Nat.lt_of_succ_lt h)).2.2 (ix2 ch q) + _ = _
        rw [i2 ch q, hb, hk, hm]
        unfold accUpTo
        rw [upTo_succ _ _ hlt, add_assoc]

/-- At the last tile of a batch the result block is that batch of the tiled result. -/
theorem result_blk (c : Dev nD) (t : Fin cfg0.N) (h7 : t.val % 8 = 7) (ch : Fin 64) (q : Fin 4096) :
    (outsAt0 m c t.val t.isLt).1 (ix3 0 ch q) = kerOut (xin m c) (bOf t) ch q := by
  rw [outs_last m c t h7, pay2_apply]
  obtain ⟨i1, i2⟩ := scratch_eq m c t.val t.isLt
  rw [i1 q, i2 ch q, h7]
  unfold lUpTo accUpTo kerOut
  rw [upTo_seven, upTo_seven]

/-! ### The result array -/

/-- The flattened result as one function of the input. -/
def G (x : SX.Idx → EReal) : SO.Idx → EReal := fun j => kerOut x (j 0) (j 1) (j 2)

/-- What point `t = 8 b + 7` writes back is block b of `G`. -/
theorem flushed_eq (c : Dev nD) (t : Fin cfg0.N) (hf : (cfg0.win 3).flush t = true) :
    (dats m 0 c).flushed 3 t = ((cfg0.win 3).blk t).view.read (Elt Ideal) (G (xin m c)) := by
  have h7 : t.val % 8 = 7 := (flush0_3 t).mp hf
  have hi := idx_facts3 t
  show (cfg0.win 3).cut (grid0.coords t) ((dats m 0 c).after 3 t) = _
  rw [after0_3]
  show (outsAt0 m c t.val t.isLt).1 = fun y : S1x64x4096.Idx => G (xin m c) (((cfg0.win 3).blk t).view.emb y)
  funext y
  obtain ⟨y0, ch, q, rfl⟩ : ∃ (y0 : Fin 1) (ch : Fin 64) (q : Fin 4096), y = ix3 y0 ch q := ⟨y 0, y 1, y 2, eq_ix3 y⟩
  obtain rfl : y0 = 0 := Subsingleton.elim _ _
  rw [result_blk m c t h7 ch q]
  show kerOut (xin m c) (bOf t) ch q = kerOut (xin m c) _ _ _
  congr 1
  · apply Fin.ext; show t.val / 8 = win0_3.index t 0 * 1 + 1 * 0; rw [hi.1]; omega
  · apply Fin.ext; show ch.val = win0_3.index t 1 * 64 + 1 * ch.val; rw [hi.2.1]; omega
  · apply Fin.ext; show q.val = win0_3.index t 2 * 4096 + 1 * q.val; rw [hi.2.2]; omega

/-- An index of the array lies in point `t`'s block iff each coordinate is in the block's range on its axis. -/
theorem mem_blk (t : Fin cfg0.N) (i : S8x64x4096.Idx) :
    i ∈ ((cfg0.win 3).blk t).view.set ↔ ∀ a : Fin 3, win0_3.index t a * S1x64x4096.size a ≤ (i a).val ∧ (i a).val < win0_3.index t a * S1x64x4096.size a + S1x64x4096.size a := by
  show i ∈ ((View.whole main_v15).slice (win0_3.rect t)).set ↔ _
  rw [View.set_slice_whole, Rect.mem_set_unit]
  exact Iff.rfl

/-- After the run the flattened result array is `G` of the input: batch b is written back at point 8 b + 7. -/
theorem final (c : Dev nD) : (dats m 0 c).arrAt 3 cfg0.N = G (xin m c) :=
  (dats m 0 c).arrAt_eq_of_cover 3 (G (xin m c)) (flushed_eq m c) fun i => by
    have hb : (i 0).val < 8 := (i 0).isLt
    have hc : (i 1).val < 64 := (i 1).isLt
    have hq : (i 2).val < 4096 := (i 2).isLt
    let t : Fin cfg0.N := ⟨8 * (i 0).val + 7, by rw [N64]; omega⟩
    have ht : t.val = 8 * (i 0).val + 7 := rfl
    have hi := idx_facts3 t
    refine ⟨t, (flush0_3 t).mpr (by rw [ht]; omega), ?_⟩
    rw [mem_blk]
    intro a
    match a with
    | ⟨0, _⟩ => show win0_3.index t 0 * 1 ≤ (i 0).val ∧ (i 0).val < win0_3.index t 0 * 1 + 1; rw [hi.1, ht]; omega
    | ⟨1, _⟩ => show win0_3.index t 1 * 64 ≤ (i 1).val ∧ (i 1).val < win0_3.index t 1 * 64 + 64; rw [hi.2.1]; omega
    | ⟨2, _⟩ => show win0_3.index t 2 * 4096 ≤ (i 2).val ∧ (i 2).val < win0_3.index t 2 * 4096 + 4096; rw [hi.2.2]; omega

/-- The program's result: the last host line reshapes the flattened array to [8, 64, 64, 64]. -/
theorem tail_eq (c : Dev nD) :
    Pipeline.afterTail₀ cfgs (dats m) 0 (V0 m) [hostOps1] c main_v16
      = shapeCast S8x64x64x64 (G (xin m c)) shapeCasts_S8x64x4096_S8x64x64x64 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15)
      = G (xin m c) :=
    (Pipeline.withArrays_arr spec0 launch0.win.arr_inj c _ _ 3).trans (final m c)
  rw [e]
  rfl

/-- The run, read: the result at the reshaped tiled result of the input, the input unchanged. -/
theorem run : θ_run defs (onTc (τ := τ) (main (F := Ideal))) ⟨m, fun _ => 0, ρ⟩ fun r => ∀ c : Dev nD,
      r.2.mem ((c : Thread nD τ).loc main_v16) = shapeCast S8x64x64x64 (G (xin m c)) shapeCasts_S8x64x4096_S8x64x64x64
      ∧ r.2.mem ((c : Thread nD τ).loc main_arg0) = m ((c : Thread nD τ).loc main_arg0) :=
  (θ_run defs _ _).mono (fun _ h c =>
      ⟨((h c).2 main_v16 (Pipeline.mem_restRefs_of main_v16 (by decide) (by decide))).trans (tail_eq m c),
        ((h c).2 main_arg0 (Pipeline.mem_restRefs_of main_arg0 (by decide) (by decide))).trans (W_main_arg0 m (dats m) c)⟩)
    (run_main m ρ)

end Cert.Saam.KV
end
-- ==== Proof.RefValue.lean ====
import proofs.«428967_j45646912422425_3_alg».proof.Proof.Gen.ReferenceIdeal.Read
import proofs.«428967_j45646912422425_3_alg».proof.Proof.Spec
import Idealize.ShloMosaic.Lib.ValueIdx
import Idealize.ShloMosaic.Lib.Pipeline.Value
import Idealize.ShloMosaic.PureOps.Ideal.Laws
import Idealize.ShloMosaic.PureOps.Reduce

/-!
  The normalise-first program, read index by index over the extended reals.

  Each stage of the program is identified with the corresponding quantity of the specification:
  the reshaped channel mean with `avg`, the outer product of the means with the score `avg i * avg j`,
  the row maximum with `refMax`, the exponential of the shifted score with `rwt`, its row sum with `rsum`,
  the quotient with `rwt / rsum`, the flattened input with `x (pix b c m)`, and finally the contraction over
  the keys with `refOut`.  Every step is either an identity between index maps over literal extents
  (division and remainder by 64 and 4096) or the unfolding of one operation at the extended reals.
-/

noncomputable section

namespace Cert.Saam

open Cert.ReferenceIdeal Cert.ReferenceIdeal.Gen Cert.ReferenceIdeal.Read
open Idealize.ShloMosaic Idealize.ShloMosaic.ValueIdx

/-- The input of the program, as the specification sees it. -/
abbrev XIn : Type := (⟨Cert.ReferenceIdeal.S8x64x64x64, .f32⟩ : BufTy).Contents (Elt Ideal)

/-- Pixel `n` of batch `b`, read through the reshape [8,64,64] → [8,4096] and the channel sum's index map,
    is channel `k` at row `n / 64`, column `n % 64`. -/
theorem idx_v0_v3 (b : Fin 8) (n : Fin 4096) (k : Fin 64) :
    idx_main_v0 (idx_main_v3 (ix2 b n)) k = pix b k n := by
  funext a
  apply Fin.ext
  have hb := b.isLt
  have hn := n.isLt
  match a with
  | ⟨0, _⟩ => show (b.val * 4096 + n.val) / 4096 = b.val; omega
  | ⟨1, _⟩ => rfl
  | ⟨2, _⟩ => show (b.val * 4096 + n.val) / 64 % 64 = n.val / 64; omega
  | ⟨3, _⟩ => show (b.val * 4096 + n.val) % 64 = n.val % 64; omega

/-- The reshaped channel mean is `avg`. -/
theorem avg_v3 (x0 : XIn) (b : Fin 8) (n : Fin 4096) :
    val_main_v3 (F := Ideal) x0 (ix2 b n) = avg x0 b n := by
  rw [val_main_v3_apply, val_main_v2_apply, val_main_v0_apply, val_main_v1_apply, val_main_cst_0_apply,
    val_main_cst_apply]
  simp only [idx_v0_v3, Ideal.hostDivf_def, Ideal.ofBits_def]
  rfl

/-- The two broadcasts of the mean into the score's shape read the query's and the key's mean. -/
theorem idx_v4_v6 (b : Fin 8) (i j : Fin 4096) :
    idx_main_v4 (idx_main_v6 (ix3 b i j)) = ix2 b i := by
  funext a
  apply Fin.ext
  match a with
  | ⟨0, _⟩ => rfl
  | ⟨1, _⟩ => rfl

theorem idx_v5_v7 (b : Fin 8) (i j : Fin 4096) :
    idx_main_v5 (idx_main_v7 (ix3 b i j)) = ix2 b j := by
  funext a
  apply Fin.ext
  match a with
  | ⟨0, _⟩ => rfl
  | ⟨1, _⟩ => rfl

/-- The score of query `i` against key `j` is the product of their means. -/
theorem score_v8 (x0 : XIn) (b : Fin 8) (i j : Fin 4096) :
    val_main_v8 (F := Ideal) x0 (ix3 b i j) = avg x0 b i * avg x0 b j := by
  rw [val_main_v8_apply, val_main_v6_apply, val_main_v4_apply, val_main_v7_apply, val_main_v5_apply,
    idx_v4_v6, idx_v5_v7, avg_v3, avg_v3, Ideal.mulf_def]

/-- The score's shape reduces over its last axis to the shape of the row maxima. -/
theorem red_d2 : Cert.ReferenceIdeal.S8x4096x4096.Reduces [2] Cert.ReferenceIdeal.S8x4096 := by decide

/-- Inserting key `k` on the last axis over the row (b, i) gives the score's index (b, i, k). -/
theorem lift_d2 (b : Fin 8) (i k : Fin 4096) :
    red_d2.lift (ix2 b i) k = ix3 b i k := by
  funext a
  apply Fin.ext
  match a with
  | ⟨0, _⟩ => rfl
  | ⟨1, _⟩ => rfl
  | ⟨2, _⟩ => rfl

/-- A maximum-reduce over the last axis from the word of −∞, at row (b, i): the fold of `max` over the keys. -/
theorem rowmax_fold (y : Cert.ReferenceIdeal.S8x4096x4096.Idx → Ideal .f32) (b : Fin 8) (i : Fin 4096) :
    Host.reduce FloatOps.maximumf y (val_main_cst_1 (F := Ideal)) reducesTo_S8x4096x4096_S8x4096_d2 h_S_ (ix2 b i)
      = (Finset.univ : Finset (Fin 4096)).fold max (Ideal.ofBits .f32 0xFF800000#32) (fun k => y (ix3 b i k)) := by
  rw [Host.reduce_eq_fold_single FloatOps.maximumf y _ reducesTo_S8x4096x4096_S8x4096_d2 red_d2 h_S_]
  have hf : (y ∘ red_d2.lift (ix2 b i)) = fun k : Fin 4096 => y (ix3 b i k) :=
    funext fun k => congrArg y (lift_d2 b i k)
  rw [hf]
  rfl

/-- The row maximum, taken once more against the word of −∞, is `refMax`. -/
theorem max_v11 (x0 : XIn) (b : Fin 8) (i : Fin 4096) :
    val_main_v11 (F := Ideal) x0 (ix2 b i) = refMax x0 b i := by
  rw [val_main_v11_apply, val_main_v10_apply, val_main_cst_2_apply]
  refine (congrArg (FloatOps.maximumf (F := Ideal) (FloatOps.ofBits .f32 0xFF800000#32))
    (rowmax_fold (val_main_v8 (F := Ideal) x0) b i)).trans ?_
  simp only [score_v8]
  rfl

/-- The row maximum, broadcast back along the keys, is read at the query's row. -/
theorem idx_v12_v13 (b : Fin 8) (i j : Fin 4096) :
    idx_main_v12 (idx_main_v13 (ix3 b i j)) = ix2 b i := by
  funext a
  apply Fin.ext
  match a with
  | ⟨0, _⟩ => rfl
  | ⟨1, _⟩ => rfl

/-- The exponential of the score shifted by its row maximum is the unnormalised weight `rwt`. -/
theorem exp_v15 (x0 : XIn) (b : Fin 8) (i j : Fin 4096) :
    val_main_v15 (F := Ideal) x0 (ix3 b i j) = rwt x0 b i j := by
  rw [val_main_v15_apply, val_main_v14_apply, val_main_v13_apply, val_main_v12_apply, idx_v12_v13, max_v11,
    score_v8, Ideal.hostUnary_exp_def, Ideal.subf_def]
  rfl

/-- The row sum's index map at row (b, i) and key `k` is the weight's index (b, i, k). -/
theorem idx_v16 (b : Fin 8) (i k : Fin 4096) :
    idx_main_v16 (ix2 b i) k = ix3 b i k := by
  funext a
  apply Fin.ext
  match a with
  | ⟨0, _⟩ => rfl
  | ⟨1, _⟩ => rfl
  | ⟨2, _⟩ => rfl

/-- The row sum of the weights, from the zero word, is `rsum`. -/
theorem sum_v16 (x0 : XIn) (b : Fin 8) (i : Fin 4096) :
    val_main_v16 (F := Ideal) x0 (ix2 b i) = rsum x0 b i := by
  rw [val_main_v16_apply, val_main_cst_3_apply]
  simp only [idx_v16, exp_v15, Ideal.ofBits_def]
  rfl

/-- The row sum, broadcast back along the keys, is read at the query's row. -/
theorem idx_v17_v18 (b : Fin 8) (i j : Fin 4096) :
    idx_main_v17 (idx_main_v18 (ix3 b i j)) = ix2 b i := by
  funext a
  apply Fin.ext
  match a with
  | ⟨0, _⟩ => rfl
  | ⟨1, _⟩ => rfl

/-- The normalised weight of key `j` for query `i`. -/
theorem div_v19 (x0 : XIn) (b : Fin 8) (i j : Fin 4096) :
    val_main_v19 (F := Ideal) x0 (ix3 b i j) = Ideal.div (rwt x0 b i j) (rsum x0 b i) := by
  rw [val_main_v19_apply, val_main_v18_apply, val_main_v17_apply, idx_v17_v18, sum_v16, exp_v15,
    Ideal.hostDivf_def]

/-- The input flattened to [8, 64, 4096], at (b, c, m), is the input at pixel `m` of batch `b`, channel `c`. -/
theorem idx_v20 (b : Fin 8) (c : Fin 64) (m : Fin 4096) :
    idx_main_v20 (ix3 b c m) = pix b c m := by
  funext a
  apply Fin.ext
  have hb := b.isLt
  have hc := c.isLt
  have hm := m.isLt
  match a with
  | ⟨0, _⟩ => show ((b.val * 64 + c.val) * 4096 + m.val) / 262144 = b.val; omega
  | ⟨1, _⟩ => show ((b.val * 64 + c.val) * 4096 + m.val) / 4096 % 64 = c.val; omega
  | ⟨2, _⟩ => show ((b.val * 64 + c.val) * 4096 + m.val) / 64 % 64 = m.val / 64; omega
  | ⟨3, _⟩ => show ((b.val * 64 + c.val) * 4096 + m.val) % 64 = m.val % 64; omega

theorem flat_v20 (x0 : XIn) (b : Fin 8) (c : Fin 64) (m : Fin 4096) :
    val_main_v20 (F := Ideal) x0 (ix3 b c m) = x0 (pix b c m) := by
  rw [val_main_v20_apply, idx_v20]

/-- The contraction's two index maps at result (b, c, n) and key `k`: the value at (b, c, k), the weight at (b, n, k). -/
theorem lidx_v21 (b : Fin 8) (c : Fin 64) (n k : Fin 4096) :
    lidx_main_v21 (ix3 b c n) k = ix3 b c k := by
  funext a
  apply Fin.ext
  match a with
  | ⟨0, _⟩ => rfl
  | ⟨1, _⟩ => rfl
  | ⟨2, _⟩ => rfl

theorem ridx_v21 (b : Fin 8) (c : Fin 64) (n k : Fin 4096) :
    ridx_main_v21 (ix3 b c n) k = ix3 b n k := by
  funext a
  apply Fin.ext
  match a with
  | ⟨0, _⟩ => rfl
  | ⟨1, _⟩ => rfl
  | ⟨2, _⟩ => rfl

/-- The contraction over the keys, before the final reshape, is the normalise-first result `refOut`. -/
theorem ref_v21_eq (x0 : (⟨Cert.ReferenceIdeal.S8x64x64x64, .f32⟩ : BufTy).Contents (Elt Ideal)) :
    Cert.ReferenceIdeal.Read.val_main_v21 (F := Ideal) x0 = fun j : SO.Idx => refOut x0 (j 0) (j 1) (j 2) := by
  funext j
  obtain ⟨b, c, n, rfl⟩ : ∃ (b : Fin 8) (c : Fin 64) (n : Fin 4096), j = ix3 b c n := ⟨j 0, j 1, j 2, eq_ix3 j⟩
  rw [val_main_v21_apply]
  simp only [lidx_v21, ridx_v21, flat_v20, div_v19]
  rfl

end Cert.Saam

end
-- ==== Proof.LibAggAlgebra.lean ====
/-
  Extended-real algebra for a neighbourhood sum over a zero-one adjacency.

  On the extended reals products do not distribute over sums at the infinities, and a sum of
  coerced reals has to be shown to be the coerced sum. Every lemma here assumes its operands are
  (coercions of) real numbers, moves the whole identity into the reals, and proves it there.
-/
import Mathlib.Data.EReal.Inv
import Mathlib.Data.EReal.Operations
import Mathlib.Algebra.BigOperators.Group.Finset.Basic
import Mathlib.Algebra.BigOperators.Ring.Finset
import Mathlib.Analysis.SpecialFunctions.Sqrt
import Mathlib.Tactic.Ring
import Mathlib.Tactic.Linarith
import Mathlib.Tactic.NormNum
import Idealize.ShloMosaic.PureOps.Ideal

noncomputable section

namespace Cert.AggAlgebra

open Idealize.ShloMosaic

/-- An extended real that is (the coercion of) a real number. -/
abbrev IsReal (x : EReal) : Prop := ∃ r : ℝ, x = (r : EReal)

variable {ι : Type*}

/-! ### Reals are closed under the operations of the network -/

theorem isReal_coe (r : ℝ) : IsReal (r : EReal) := ⟨r, rfl⟩

theorem isReal_zero : IsReal (0 : EReal) := ⟨0, rfl⟩

theorem isReal_one : IsReal (1 : EReal) := ⟨1, rfl⟩

theorem isReal_of_zero_or_one {x : EReal} (h : x = 0 ∨ x = 1) : IsReal x := by
  rcases h with rfl | rfl
  · exact isReal_zero
  · exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

/-- The coercion of a finite sum of reals is the sum of the coercions. -/
theorem coe_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem isReal_sum (s : Finset ι) (f : ι → EReal) (hf : ∀ i ∈ s, IsReal (f i)) :
    IsReal (∑ i ∈ s, f i) := by
  classical
  induction s using Finset.induction_on with
  | empty => exact ⟨0, by simp⟩
  | insert i s hi ih =>
    rw [Finset.sum_insert hi]
    exact isReal_add (hf i (Finset.mem_insert_self i s))
      (ih fun j hj => hf j (Finset.mem_insert_of_mem hj))

/-! ### (i) The scaled neighbourhood sum factors -/

/-- With a zero-one weight `a` and real `h`, `d`, `hj`, `dj`: summing `h i * (d i * dj)` over the
    indices where `a` is not zero, and adding the self term `hj * (dj * dj)`, is the weighted sum
    `∑ a i * (h i * d i)` plus `hj * dj`, all times `dj`. -/
theorem agg_factor [Fintype ι] (a h d : ι → EReal) (hj dj : EReal)
    [inst : ∀ i, Decidable (a i ≠ 0)]
    (ha : ∀ i, a i = 0 ∨ a i = 1) (hh : ∀ i, IsReal (h i)) (hd : ∀ i, IsReal (d i))
    (hhj : IsReal hj) (hdj : IsReal dj) :
    (∑ i, if a i ≠ 0 then h i * (d i * dj) else 0) + hj * (dj * dj)
      = ((∑ i, a i * (h i * d i)) + hj * dj) * dj := by
  choose hr hhr using hh
  choose dr hdr using hd
  obtain ⟨hjr, rfl⟩ := hhj
  obtain ⟨djr, rfl⟩ := hdj
  -- every summand on either side is the coercion of a real summand
  have hL : ∀ i, (if a i ≠ 0 then h i * (d i * (djr : EReal)) else 0)
      = ((if a i ≠ 0 then hr i * (dr i * djr) else 0 : ℝ) : EReal) := by
    intro i
    split_ifs
    · rw [hhr i, hdr i, ← EReal.coe_mul, ← EReal.coe_mul]
    · rfl
  have hR : ∀ i, a i * (h i * d i) = ((if a i ≠ 0 then hr i * dr i else 0 : ℝ) : EReal) := by
    intro i
    rcases ha i with h0 | h1
    · rw [if_neg (by simp [h0]), h0, zero_mul]; rfl
    · rw [if_pos (by simp [h1]), h1, one_mul, hhr i, hdr i, ← EReal.coe_mul]
  rw [Finset.sum_congr rfl (fun i _ => hL i), Finset.sum_congr rfl (fun i _ => hR i),
    ← coe_sum, ← coe_sum, ← EReal.coe_mul, ← EReal.coe_mul, ← EReal.coe_mul, ← EReal.coe_add,
    ← EReal.coe_add, ← EReal.coe_mul]
  congr 1
  -- the identity in the reals: distribute the last factor over the sum
  rw [add_mul, Finset.sum_mul]
  congr 1
  · refine Finset.sum_congr rfl fun i _ => ?_
    split_ifs <;> ring
  · ring

/-! ### (ii) The degree: a count, a real at least one, and its inverse square root -/

/-- Counting the indices where a zero-one weight is not zero is summing the weight. -/
theorem count_eq_sum [Fintype ι] (a : ι → EReal) [inst : ∀ i, Decidable (a i ≠ 0)]
    (ha : ∀ i, a i = 0 ∨ a i = 1) :
    (∑ i, if a i ≠ 0 then (1 : EReal) else 0) + 1 = (∑ i, a i) + 1 := by
  congr 1
  refine Finset.sum_congr rfl fun i _ => ?_
  rcases ha i with h0 | h1
  · rw [if_neg (by simp [h0]), h0]
  · rw [if_pos (by simp [h1]), h1]

/-- The sum of a zero-one weight, plus one, is a real number at least one. -/
theorem sum_add_one_real [Fintype ι] (a : ι → EReal) (ha : ∀ i, a i = 0 ∨ a i = 1) :
    ∃ r : ℝ, 1 ≤ r ∧ (∑ i, a i) + 1 = (r : EReal) := by
  classical
  -- the weight as a real zero-one function
  have hcoe : ∀ i, a i = ((if a i ≠ 0 then 1 else 0 : ℝ) : EReal) := by
    intro i
    rcases ha i with h0 | h1
    · rw [if_neg (by simp [h0]), h0]; rfl
    · rw [if_pos (by simp [h1]), h1]; rfl
  refine ⟨(∑ i, (if a i ≠ 0 then 1 else 0 : ℝ)) + 1, ?_, ?_⟩
  · have h0 : 0 ≤ ∑ i, (if a i ≠ 0 then (1 : ℝ) else 0) :=
      Finset.sum_nonneg fun i _ => by split_ifs <;> norm_num
    linarith
  · rw [EReal.coe_add, coe_sum, EReal.coe_one]
    congr 1
    exact Finset.sum_congr rfl fun i _ => hcoe i

/-- One over the square root is the inverse square root, at a positive real. -/
theorem div_one_sqrt (r : ℝ) (hr : 0 < r) :
    Ideal.div 1 (Ideal.sqrt (r : EReal)) = Ideal.rsqrt (r : EReal) := by
  have hs : 0 < Real.sqrt r := Real.sqrt_pos.mpr hr
  have hs0 : ((Real.sqrt r : ℝ) : EReal) ≠ 0 := by exact_mod_cast hs.ne'
  rw [Ideal.sqrt_coe, Ideal.rsqrt_coe, if_neg (not_lt.mpr hr.le), if_neg (not_lt.mpr hr.le),
    if_neg hr.ne', Ideal.div, if_neg hs0, one_mul, EReal.coe_inv]

/-- The inverse square root of a positive real is a positive real. -/
theorem rsqrt_pos_real (r : ℝ) (hr : 0 < r) :
    ∃ s : ℝ, 0 < s ∧ Ideal.rsqrt (r : EReal) = (s : EReal) := by
  have hs : 0 < Real.sqrt r := Real.sqrt_pos.mpr hr
  refine ⟨(Real.sqrt r)⁻¹, inv_pos.mpr hs, ?_⟩
  rw [Ideal.rsqrt_coe, if_neg (not_lt.mpr hr.le), if_neg hr.ne']

/-- A positive real compares greater than zero. -/
theorem cmp_ogt_zero (r : ℝ) (hr : 0 < r) : Ideal.cmp .ogt (r : EReal) 0 = 1#1 := by
  have h : (0 : EReal) < (r : EReal) := EReal.coe_pos.mpr hr
  simp [Ideal.cmp, h]

end Cert.AggAlgebra

end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.Algebra.lean ====
/-
  The tiled arrangement of the attention sum and the normalise-first arrangement agree on real inputs.

  With every input real, every channel mean is real, the folds of max and min over the 4096 means are real, and so are
  both shifts.  The exponential of a real is a positive real, so both denominators are positive reals and every
  extended-real operation is the coercion of the real one.  In the reals, a softmax-weighted sum does not depend on the
  shift: exp (s − c) = exp s · (exp c)⁻¹, and the common factor (exp c)⁻¹ ≠ 0 cancels between numerator and
  denominator.  Summing the eight tiles of 512 keys is summing over all 4096 keys.
-/
import proofs.«428967_j45646912422425_3_alg».proof.Proof.Spec
import proofs.«428967_j45646912422425_3_alg».proof.Proof.LibAggAlgebra
import proofs.«428967_j45646912422425_3_alg».proof.Proof.LibTileSum
import Idealize.ShloMosaic.PureOps.Ideal
import Idealize.ShloMosaic.PureOps.Ideal.Laws
import Mathlib.Analysis.SpecialFunctions.Exp
import Mathlib.Data.EReal.Inv
import Mathlib.Tactic.FieldSimp
import Mathlib.Tactic.Ring
import Mathlib.Tactic.NormNum

noncomputable section

namespace Cert.Saam

open Idealize.ShloMosaic Cert.AggAlgebra

/-! ### The float words that occur -/

theorem word_zero : Ideal.ofBits .f32 0x00000000#32 = 0 := Ideal.ofBits_zero_f32

theorem word_64 : Ideal.ofBits .f32 0x42800000#32 = ((64 : ℝ) : EReal) := by
  simp [Ideal.ofBits, Ideal.ieee]
  rw [← EReal.coe_mul]
  norm_num

theorem word_one : Ideal.ofBits .bf16 0x3F80#16 = 1 := by
  simp [Ideal.ofBits, Ideal.ieee]
  rw [← EReal.coe_mul]
  norm_num

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

/-! ### The identity in the reals -/

section Reals

variable {K : Type*} [Fintype K] [Nonempty K]

/-- A sum of exponentials over a nonempty index type is positive. -/
theorem sum_exp_pos (s : K → ℝ) : 0 < ∑ k, Real.exp (s k) :=
  Finset.sum_pos (fun k _ => Real.exp_pos (s k)) Finset.univ_nonempty

/-- The softmax-weighted sum does not depend on the shift: the factor (exp c)⁻¹ cancels. -/
theorem softmax_shift (X s : K → ℝ) (c : ℝ) :
    (∑ k, X k * Real.exp (s k - c)) * (∑ k, Real.exp (s k - c))⁻¹
      = (∑ k, X k * Real.exp (s k)) * (∑ k, Real.exp (s k))⁻¹ := by
  have hc : Real.exp c ≠ 0 := (Real.exp_pos c).ne'
  have hS : (∑ k, Real.exp (s k)) ≠ 0 := (sum_exp_pos s).ne'
  have h1 : (∑ k, X k * Real.exp (s k - c)) = (∑ k, X k * Real.exp (s k)) * (Real.exp c)⁻¹ := by
    rw [Finset.sum_mul]
    refine Finset.sum_congr rfl fun k _ => ?_
    rw [Real.exp_sub, div_eq_mul_inv, mul_assoc]
  have h2 : (∑ k, Real.exp (s k - c)) = (∑ k, Real.exp (s k)) * (Real.exp c)⁻¹ := by
    rw [Finset.sum_mul]
    refine Finset.sum_congr rfl fun k _ => ?_
    rw [Real.exp_sub, div_eq_mul_inv]
  rw [h1, h2]
  field_simp

/-- Dividing the two shifted sums at the end, with shift μ, is summing against weights normalised first, with shift M. -/
theorem softmax_two_ways (X s : K → ℝ) (μ M : ℝ) :
    (∑ k, X k * Real.exp (s k - μ)) * (∑ k, Real.exp (s k - μ))⁻¹
      = ∑ m, X m * (Real.exp (s m - M) * (∑ j, Real.exp (s j - M))⁻¹) := by
  rw [softmax_shift X s μ, ← softmax_shift X s M, Finset.sum_mul]
  exact Finset.sum_congr rfl fun k _ => mul_assoc _ _ _

end Reals

/-! ### The two arrangements over the extended reals, at real data -/

section Coe

variable {K : Type*} [Fintype K] [Nonempty K]

theorem exp_sub_coe (s c : ℝ) : Ideal.exp ((s : EReal) - (c : EReal)) = ((Real.exp (s - c) : ℝ) : EReal) := by
  rw [← EReal.coe_sub, Ideal.exp_coe]

/-- Numerator and denominator accumulated from zero and divided at the end: the coercion of the real quotient. -/
theorem div_sums_coe (X s : K → ℝ) (c : ℝ) :
    Ideal.div (0 + ∑ k, (X k : EReal) * Ideal.exp ((s k : EReal) - (c : EReal)))
        (0 + ∑ k, (1 : EReal) * Ideal.exp ((s k : EReal) - (c : EReal)))
      = (((∑ k, X k * Real.exp (s k - c)) * (∑ k, Real.exp (s k - c))⁻¹ : ℝ) : EReal) := by
  have hN : (0 : EReal) + ∑ k, (X k : EReal) * Ideal.exp ((s k : EReal) - (c : EReal))
      = ((∑ k, X k * Real.exp (s k - c) : ℝ) : EReal) := by
    rw [zero_add, coe_sum]
    refine Finset.sum_congr rfl fun k _ => ?_
    rw [exp_sub_coe, EReal.coe_mul]
  have hD : (0 : EReal) + ∑ k, (1 : EReal) * Ideal.exp ((s k : EReal) - (c : EReal))
      = ((∑ k, Real.exp (s k - c) : ℝ) : EReal) := by
    rw [zero_add, coe_sum]
    refine Finset.sum_congr rfl fun k _ => ?_
    rw [exp_sub_coe, one_mul]
  have hpos : (0 : ℝ) < ∑ k, Real.exp (s k - c) := sum_exp_pos fun k => s k - c
  have hne : ((∑ k, Real.exp (s k - c) : ℝ) : EReal) ≠ 0 := by exact_mod_cast hpos.ne'
  rw [hN, hD, Ideal.div, if_neg hne, ← EReal.coe_inv, ← EReal.coe_mul]

/-- Weights divided by their row sum (accumulated from zero) first, then summed: the coercion of the real sum. -/
theorem norm_sum_coe (X s : K → ℝ) (c : ℝ) :
    ∑ m, (X m : EReal) * Ideal.div (Ideal.exp ((s m : EReal) - (c : EReal)))
        (0 + ∑ j, Ideal.exp ((s j : EReal) - (c : EReal)))
      = ((∑ m, X m * (Real.exp (s m - c) * (∑ j, Real.exp (s j - c))⁻¹) : ℝ) : EReal) := by
  have hD : (0 : EReal) + ∑ j, Ideal.exp ((s j : EReal) - (c : EReal))
      = ((∑ j, Real.exp (s j - c) : ℝ) : EReal) := by
    rw [zero_add, coe_sum]
    exact Finset.sum_congr rfl fun j _ => exp_sub_coe _ _
  have hpos : (0 : ℝ) < ∑ j, Real.exp (s j - c) := sum_exp_pos fun j => s j - c
  have hne : ((∑ j, Real.exp (s j - c) : ℝ) : EReal) ≠ 0 := by exact_mod_cast hpos.ne'
  rw [coe_sum]
  refine Finset.sum_congr rfl fun m _ => ?_
  rw [hD, exp_sub_coe, Ideal.div, if_neg hne, ← EReal.coe_inv, ← EReal.coe_mul, ← EReal.coe_mul]

end Coe

/-! ### Folds of max and min over real values -/

theorem isReal_min {x y : EReal} (hx : IsReal x) (hy : IsReal y) : IsReal (min x y) := by
  obtain ⟨a, rfl⟩ := hx
  obtain ⟨b, rfl⟩ := hy
  exact ⟨min a b, (EReal.coe_strictMono.monotone.map_min).symm⟩

/-- The fold of max from −∞ over a nonempty family of reals is real. -/
theorem fold_max_real {ι : Type*} (f : ι → EReal) (hf : ∀ i, IsReal (f i)) (s : Finset ι) (hs : s.Nonempty) :
    IsReal (s.fold max ⊥ f) := by
  induction hs using Finset.Nonempty.cons_induction with
  | singleton a =>
    rw [Finset.fold_singleton, max_eq_left bot_le]
    exact hf a
  | cons a s ha hs ih =>
    rw [Finset.fold_cons]
    exact isReal_max (hf a) ih

/-- The fold of min from +∞ over a nonempty family of reals is real. -/
theorem fold_min_real {ι : Type*} (f : ι → EReal) (hf : ∀ i, IsReal (f i)) (s : Finset ι) (hs : s.Nonempty) :
    IsReal (s.fold min ⊤ f) := by
  induction hs using Finset.Nonempty.cons_induction with
  | singleton a =>
    rw [Finset.fold_singleton, min_eq_left le_top]
    exact hf a
  | cons a s ha hs ih =>
    rw [Finset.fold_cons]
    exact isReal_min (hf a) ih

/-! ### Every quantity of the specification is real -/

section Spec

variable (x : SX.Idx → EReal) (hx : ∀ i, IsReal (x i))
include hx

theorem avg_real (b : Fin 8) (n : Fin 4096) : IsReal (avg x b n) := by
  unfold avg
  rw [word_zero, word_64, Ideal.div_coe (by norm_num : (64 : ℝ) ≠ 0)]
  exact isReal_mul (isReal_add isReal_zero (isReal_sum _ _ fun c _ => hx _)) (isReal_coe _)

theorem gmax_real (b : Fin 8) : IsReal (gmax x b) := by
  unfold gmax
  rw [word_bot]
  exact fold_max_real _ (avg_real x hx b) _ Finset.univ_nonempty

theorem gmin_real (b : Fin 8) : IsReal (gmin x b) := by
  unfold gmin
  rw [word_top]
  exact fold_min_real _ (avg_real x hx b) _ Finset.univ_nonempty

theorem kmax_real (b : Fin 8) (i : Fin 4096) : IsReal (kmax x b i) :=
  isReal_max (isReal_mul (avg_real x hx b i) (gmax_real x hx b)) (isReal_mul (avg_real x hx b i) (gmin_real x hx b))

theorem refMax_real (b : Fin 8) (i : Fin 4096) : IsReal (refMax x b i) := by
  unfold refMax
  rw [word_bot, max_eq_right bot_le]
  exact fold_max_real _ (fun j => isReal_mul (avg_real x hx b i) (avg_real x hx b j)) _ Finset.univ_nonempty

end Spec

/-! ### The tiles make the whole -/

theorem sum_accPart (x : SX.Idx → EReal) (b : Fin 8) (c : Fin 64) (i : Fin 4096) :
    ∑ t : Fin 8, accPart x b c i t = ∑ k : Fin 4096, x (pix b c k) * kw x b k i :=
  Cert.TileSum.sum_tiles_fin' 8 512 4096 rfl (fun k => x (pix b c k) * kw x b k i) key (fun _ _ => rfl)

theorem sum_lPart (x : SX.Idx → EReal) (b : Fin 8) (i : Fin 4096) :
    ∑ t : Fin 8, lPart x b i t = ∑ k : Fin 4096, Ideal.ofBits .bf16 0x3F80#16 * kw x b k i :=
  Cert.TileSum.sum_tiles_fin' 8 512 4096 rfl (fun k => Ideal.ofBits .bf16 0x3F80#16 * kw x b k i) key (fun _ _ => rfl)

/-! ### The theorem -/

theorem kerOut_eq_refOut (x : SX.Idx → EReal) (hx : ∀ i, ∃ r : ℝ, x i = (r : EReal)) (b : Fin 8) (c : Fin 64)
    (n : Fin 4096) : kerOut x b c n = refOut x b c n := by
  -- real witnesses: the means, the two shifts, the inputs
  choose a ha using avg_real x hx b
  obtain ⟨μ, hμ⟩ := kmax_real x hx b n
  obtain ⟨M, hM⟩ := refMax_real x hx b n
  choose xr hxr using hx
  -- the tiled arrangement, as the quotient of two real sums with scores s k = a k · a n
  have hkw : ∀ k, kw x b k n = Ideal.exp (((a k * a n : ℝ) : EReal) - (μ : EReal)) := fun k => by
    rw [kw, ha, ha, hμ, ← EReal.coe_mul]
  have hker : kerOut x b c n
      = (((∑ k, xr (pix b c k) * Real.exp (a k * a n - μ)) * (∑ k, Real.exp (a k * a n - μ))⁻¹ : ℝ) : EReal) := by
    have hN : ∑ k : Fin 4096, x (pix b c k) * kw x b k n
        = ∑ k : Fin 4096, ((xr (pix b c k) : ℝ) : EReal) * Ideal.exp (((a k * a n : ℝ) : EReal) - (μ : EReal)) :=
      Finset.sum_congr rfl fun k _ => by rw [hxr, hkw]
    have hD : ∑ k : Fin 4096, (1 : EReal) * kw x b k n
        = ∑ k : Fin 4096, (1 : EReal) * Ideal.exp (((a k * a n : ℝ) : EReal) - (μ : EReal)) :=
      Finset.sum_congr rfl fun k _ => by rw [hkw]
    rw [kerOut, sum_accPart, sum_lPart, word_zero, word_one, hN, hD]
    exact div_sums_coe (fun k => xr (pix b c k)) (fun k => a k * a n) μ
  -- the normalise-first arrangement, its scores a n · a k written in the same order
  have hw : ∀ j, rwt x b n j = Ideal.exp (((a j * a n : ℝ) : EReal) - (M : EReal)) := fun j => by
    rw [rwt, ha, ha, hM, ← EReal.coe_mul, mul_comm]
  have hR : rsum x b n = 0 + ∑ j : Fin 4096, Ideal.exp (((a j * a n : ℝ) : EReal) - (M : EReal)) := by
    rw [rsum, word_zero]
    exact congrArg (fun S => (0 : EReal) + S) (Finset.sum_congr rfl fun j _ => hw j)
  have href : refOut x b c n
      = ((∑ m, xr (pix b c m) * (Real.exp (a m * a n - M) * (∑ j, Real.exp (a j * a n - M))⁻¹) : ℝ) : EReal) := by
    have hS : ∑ m : Fin 4096, x (pix b c m) * Ideal.div (rwt x b n m) (rsum x b n)
        = ∑ m : Fin 4096, ((xr (pix b c m) : ℝ) : EReal)
            * Ideal.div (Ideal.exp (((a m * a n : ℝ) : EReal) - (M : EReal)))
                (0 + ∑ j : Fin 4096, Ideal.exp (((a j * a n : ℝ) : EReal) - (M : EReal))) :=
      Finset.sum_congr rfl fun m _ => by rw [hxr, hw, hR]
    rw [refOut, hS]
    exact norm_sum_coe (fun k => xr (pix b c k)) (fun k => a k * a n) M
  rw [hker, href]
  exact congrArg _ (softmax_two_ways (fun k => xr (pix b c k)) (fun k => a k * a n) μ M)

end Cert.Saam

end
-- ==== Proof.Finite.lean ====
/-
  Finiteness of the input, read off the printed precondition.

  The precondition is  all (|x| < +∞):  the absolute value of every entry is compared with the word of +∞, and the
  one-bit answers are reduced with `and` over all four axes.  When the result is 1, every comparison is 1; at the
  extended reals |a| is max a (−a), which is +∞ at both infinities, so an entry whose absolute value lies below +∞
  is a real number.
-/
import proofs.«428967_j45646912422425_3_alg».proof.Proof.Gen.Pre_finite_inputs
import proofs.«428967_j45646912422425_3_alg».proof.Pre_finite_inputs
import Idealize.ShloMosaic.Lib.ReduceAll
import Idealize.ShloMosaic.Lib.ValueIdx
import Idealize.ShloMosaic.PureOps.Ideal
import Mathlib.Data.EReal.Basic

noncomputable section

namespace Cert.Saam

open Idealize.ShloMosaic Idealize.ShloMosaic.ValueIdx

/-- The shape of rank 0 has exactly one index. -/
instance subsingleton_scalar_idx : Subsingleton Cert.Pre_finite_inputs.S_.Idx :=
  ⟨fun a b => funext fun d => d.elim0⟩

/-- The word 0x7F800000 denotes +∞. -/
theorem ofBits_pos_inf : Ideal.ofBits .f32 0x7F800000#32 = (⊤ : EReal) := by
  simp [Ideal.ofBits, Ideal.ieee]

/-- An extended real whose absolute value max a (−a) lies strictly below +∞ is a real number:
    at −∞ the second argument of the maximum is +∞, at +∞ the first is. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- The comparison "less than" at the extended reals answers 1 exactly when the order relation holds. -/
theorem lt_of_cmp_olt (a b : EReal) (h : Ideal.cmp .olt a b = 1#1) : a < b := by
  unfold Ideal.cmp at h
  by_contra hn
  simp [hn] at h

/-- Under the precondition every entry of the input is a real number. -/
theorem real_of_pre (x : (⟨Cert.Pre_finite_inputs.S8x64x64x64, .f32⟩ : BufTy).Contents (Elt Ideal))
    (h : Cert.Pre_finite_inputs.fn (F := Ideal) x = fun _ => 1#1) (i : Cert.Pre_finite_inputs.S8x64x64x64.Idx) :
    ∃ r : ℝ, x i = (r : EReal) := by
  -- the one entry of the rank-0 result
  have h0 := congrFun h ValueIdx.ix0
  dsimp only [Cert.Pre_finite_inputs.fn] at h0
  -- the reduction by `and` over all axes is 1, so the comparison at `i` is 1
  have hi := Host.reduce_andi_all _ _ _ _ _ h0 i
  -- the comparison at `i` is  |x i| < word of +∞
  have hw : max (x i) (-(x i)) < Ideal.ofBits .f32 0x7F800000#32 :=
    lt_of_cmp_olt (max (x i) (-(x i))) (Ideal.ofBits .f32 0x7F800000#32) hi
  rw [ofBits_pos_inf] at hw
  exact real_of_abs_lt_top (x i) hw

end Cert.Saam

end
-- ==== Proof.lean ====
/-
  The certificate of a spatial self-attention kernel with one-dimensional heads against its jnp reference.

  Both programs take x[8, 64, 64, 64], form the channel mean a[b, n] over the flattened 64 × 64 plane, score query n
  against key m by a[b, n] · a[b, m], and return out[b, c, n] = ∑ m, x[b, c, m] · softmax_m (a[b, n] · a[b, m]).
  The reference subtracts the row maximum, exponentiates, divides by the row sum and then contracts with x. The kernel
  visits the keys in 8 tiles of 512, subtracts the shift max (a n · max a, a n · min a) — a real number, which is all the
  argument needs of it —, accumulates numerator and denominator in two scratch buffers over the tiles, and divides at the
  last tile. Over the reals both are (∑ x · e^s) / (∑ e^s), because a common factor e^{-shift} cancels; the input being
  finite, every quantity on the way is a real number, so the extended reals' corners are never met.

  The kernel's run is read off its generated frame (the scratch buffers by induction on the grid point, the result array
  by the cover of its eight written-back blocks), the reference's off its generated run, one operation at a time.
-/
import proofs.«428967_j45646912422425_3_alg».proof.Defs
import proofs.«428967_j45646912422425_3_alg».proof.Proof.Gen.Kernel
import proofs.«428967_j45646912422425_3_alg».proof.Proof.Gen.Kernel.Frame
import proofs.«428967_j45646912422425_3_alg».proof.Proof.Gen.KernelIdeal
import proofs.«428967_j45646912422425_3_alg».proof.Proof.Gen.KernelIdeal.Frame
import proofs.«428967_j45646912422425_3_alg».proof.Proof.Gen.ReferenceIdeal
import proofs.«428967_j45646912422425_3_alg».proof.Proof.Gen.ReferenceIdeal.Run
import proofs.«428967_j45646912422425_3_alg».proof.Proof.Gen.ReferenceIdeal.Read
import proofs.«428967_j45646912422425_3_alg».proof.Proof.Gen.Pre_finite_inputs
import proofs.«428967_j45646912422425_3_alg».proof.Proof.KernelValue
import proofs.«428967_j45646912422425_3_alg».proof.Proof.RefValue
import proofs.«428967_j45646912422425_3_alg».proof.Proof.Algebra
import proofs.«428967_j45646912422425_3_alg».proof.Proof.Finite
import Idealize.ShloMosaic.Adequacy
import Idealize.ShloMosaic.Init

noncomputable section

namespace Cert.Proof

open Idealize.ShloMosaic Idealize.SL.Sem

/-- The word-level kernel runs and leaves its argument as it found it: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's result is the reshaped tiled quotient
    `kerOut` of the input, the reference's the reshaped normalise-first sum `refOut` of an input that agrees, and on a
    finite input the two are one function. -/
theorem algebraic : Cert.algebraic_KernelIdeal_ReferenceIdeal := by
  intro m ρ m' ρ' hpre hagree
  refine ⟨fun c => shapeCast Cert.KernelIdeal.S8x64x64x64 (Cert.Saam.KV.G (Cert.Saam.KV.xin m c))
      Cert.KernelIdeal.Gen.shapeCasts_S8x64x4096_S8x64x64x64, Cert.Saam.KV.run m ρ, ?_⟩
  refine (θ_run Cert.ReferenceIdeal.defs _ _).mono (fun _ h c => ⟨(h c).1.trans ?_, (h c).2⟩)
    (Cert.ReferenceIdeal.Value.run (F := Ideal) m' ρ')
  have hx : ∀ i, ∃ r : ℝ, Cert.Saam.KV.xin m c i = (r : EReal) := Cert.Saam.real_of_pre _ (hpre c)
  rw [Cert.ReferenceIdeal.Read.val_main_v22_eq, hagree c]
  unfold Cert.ReferenceIdeal.Read.val_main_v22
  rw [Cert.Saam.ref_v21_eq]
  refine congrArg (fun g => shapeCast Cert.KernelIdeal.S8x64x64x64 g Cert.KernelIdeal.Gen.shapeCasts_S8x64x4096_S8x64x64x64) ?_
  funext j
  exact (Cert.Saam.kerOut_eq_refOut (Cert.Saam.KV.xin m c) hx (j 0) (j 1) (j 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
